-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S2048x10000 : Shape := ⟨2, ![2048, 10000]⟩
abbrev S10000x2048 : Shape := ⟨2, ![10000, 2048]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S2048x10000 : S_.BroadcastsInDim S2048x10000 (![] : Fin 0 → Fin S2048x10000.rank)
  reducesTo_S2048x10000_S_d0_1 : S2048x10000.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S2048x10000 .f32) (main_arg5 : FVec F S10000x2048 .f32) (main_arg6 : FVec F S128x128 .f32) (main_arg7 : FVec F S128 .f32) (main_arg8 : FVec F S128x128 .f32) (main_arg9 : FVec F S128 .f32) (main_v13 : IVec S_ 1) (main_v16 : IVec S10000x2048 1) : IVec S_ 1 :=
  let main_c_5 : IVec S_ 1 := constantI S_ 1 1#1
  let main_v17 : IVec S_ 1 := (fun x v => Host.reduce IntOp.andi x v reducesTo_S10000x2048_S_d0_1 h_S_) main_v16 main_c_5
  let main_v18 : IVec S_ 1 := andi main_v13 main_v17
  let main_v19 : FVec F S2048x10000 .f32 := Host.absf main_arg4
  let main_cst_6 : FVec F S_ .f32 := constant S_ .f32 0x7F800000#32
  let main_v20 : FVec F S2048x10000 .f32 := broadcastInDim S2048x10000 ![] bcast_S_S2048x10000 main_cst_6
  let main_v21 : IVec S2048x10000 1 := cmpf .olt main_v19 main_v20
  let main_c_7 : IVec S_ 1 := constantI S_ 1 1#1
  let main_v22 : IVec S_ 1 := (fun x v => Host.reduce IntOp.andi x v reducesTo_S2048x10000_S_d0_1 h_S_) main_v21 main_c_7
  let main_v23 : IVec S_ 1 := andi main_v18 main_v22
  let main_v24 : FVec F S10000x2048 .f32 := Host.absf main_arg5
  let main_cst_8 : FVec F S_ .f32 := constant S_ .f32 0x7F800000#32
  let main_v25 : FVec F S10000x2048 .f32 := broadcastInDim S10000x2048 ![] bcast_S_S10000x2048 main_cst_8
  let main_v26 : IVec S10000x2048 1 := cmpf .olt main_v24 main_v25
  let main_c_9 : IVec S_ 1 := constantI S_ 1 1#1
  let main_v27 : IVec S_ 1 := (fun x v => Host.reduce IntOp.andi x v reducesTo_S10000x2048_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S2048x10000 .f32) (main_arg3 : FVec F S10000x2048 .f32) (main_arg4 : FVec F S2048x10000 .f32) (main_arg5 : FVec F S10000x2048 .f32) (main_arg6 : FVec F S128x128 .f32) (main_arg7 : FVec F S128 .f32) (main_arg8 : FVec F S128x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S2048x10000 .f32 := Host.absf main_arg2
  let main_cst_2 : FVec F S_ .f32 := constant S_ .f32 0x7F800000#32
  let main_v10 : FVec F S2048x10000 .f32 := broadcastInDim S2048x10000 ![] bcast_S_S2048x10000 main_cst_2
  let main_v11 : IVec S2048x10000 1 := cmpf .olt main_v9 main_v10
  let main_c_3 : IVec S_ 1 := constantI S_ 1 1#1
  let main_v12 : IVec S_ 1 := (fun x v => Host.reduce IntOp.andi x v reducesTo_S2048x10000_S_d0_1 h_S_) main_v11 main_c_3
  let main_v13 : IVec S_ 1 := andi main_v8 main_v12
  let main_v14 : FVec F S10000x2048 .f32 := Host.absf main_arg3
  let main_cst_4 : FVec F S_ .f32 := constant S_ .f32 0x7F800000#32
  let main_v15 : FVec F S10000x2048 .f32 := broadcastInDim S10000x2048 ![] bcast_S_S10000x2048 main_cst_4
  let main_v16 : IVec S10000x2048 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S2048x10000 : Shape := ⟨2, ![2048, 10000]⟩
abbrev S10000x2048 : Shape := ⟨2, ![10000, 2048]⟩
abbrev S128x128 : Shape := ⟨2, ![128, 128]⟩
abbrev S128 : Shape := ⟨1, ![128]⟩
abbrev S2048x128 : Shape := ⟨2, ![2048, 128]⟩
abbrev S256x10000 : Shape := ⟨2, ![256, 10000]⟩
abbrev S256x128 : Shape := ⟨2, ![256, 128]⟩
abbrev S1x128 : Shape := ⟨2, ![1, 128]⟩
abbrev S200x10000 : Shape := ⟨2, ![200, 10000]⟩
abbrev S200x2048 : Shape := ⟨2, ![200, 2048]⟩
abbrev S200x128 : Shape := ⟨2, ![200, 128]⟩

abbrev nBuf : Space → Nat
  | .hbm => 22
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S2048x10000, .f32⟩
  | .hbm, ⟨3, _⟩ => ⟨S10000x2048, .f32⟩
  | .hbm, ⟨4, _⟩ => ⟨S2048x10000, .f32⟩
  | .hbm, ⟨5, _⟩ => ⟨S10000x2048, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x128, .bf16⟩
  | .hbm, ⟨11, _⟩ => ⟨S2048x128, .f32⟩
  | .hbm, ⟨12, _⟩ => ⟨S2048x128, .f32⟩
  | .hbm, ⟨13, _⟩ => ⟨S2048x128, .bf16⟩
  | .hbm, ⟨14, _⟩ => ⟨S2048x128, .bf16⟩
  | .hbm, ⟨15, _⟩ => ⟨S128x128, .f32⟩
  | .hbm, ⟨16, _⟩ => ⟨S128x128, .bf16⟩
  | .hbm, ⟨17, _⟩ => ⟨S128x128, .f32⟩
  | .hbm, ⟨18, _⟩ => ⟨S128x128, .bf16⟩
  | .hbm, ⟨19, _⟩ => ⟨S1x128, .f32⟩
  | .hbm, ⟨20, _⟩ => ⟨S1x128, .f32⟩
  | .hbm, ⟨21, _⟩ => ⟨S10000x128, .f32⟩
  | .local _ .vmem, ⟨0, _⟩ => ⟨S256x10000, .f32⟩
  | .local _ .vmem, ⟨1, _⟩ => ⟨S256x10000, .f32⟩
  | .local _ .vmem, ⟨2, _⟩ => ⟨S256x10000, .f32⟩
  | .local _ .vmem, ⟨3, _⟩ => ⟨S256x10000, .f32⟩
  | .local _ .vmem, ⟨4, _⟩ => ⟨S10000x128, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S200x10000, .f32⟩
  | .local _ .vmem, ⟨10, _⟩ => ⟨S200x10000, .f32⟩
  | .local _ .vmem, ⟨11, _⟩ => ⟨S200x2048, .f32⟩
  | .local _ .vmem, ⟨12, _⟩ => ⟨S200x2048, .f32⟩
  | .local _ .vmem, ⟨13, _⟩ => ⟨S200x2048, .f32⟩
  | .local _ .vmem, ⟨14, _⟩ => ⟨S200x2048, .f32⟩
  | .local _ .vmem, ⟨15, _⟩ => ⟨S10000x128, .bf16⟩
  | .local _ .vmem, ⟨16, _⟩ => ⟨S200x128, .f32⟩
  | .local _ .vmem, ⟨17, _⟩ => ⟨S200x128, .f32⟩
  | .local _ .vmem, ⟨18, _⟩ => ⟨S2048x128, .bf16⟩
  | .local _ .vmem, ⟨19, _⟩ => ⟨S2048x128, .bf16⟩
  | .local _ .vmem, ⟨20, _⟩ => ⟨S128x128, .bf16⟩
  | .local _ .vmem, ⟨21, _⟩ => ⟨S1x128, .f32⟩
  | .local _ .vmem, ⟨22, _⟩ => ⟨S128x128, .bf16⟩
  | .local _ .vmem, ⟨23, _⟩ => ⟨S1x128, .f32⟩
  | .local _ .vmem, ⟨24, _⟩ => ⟨S200x128, .f32⟩
  | .local _ .vmem, ⟨25, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10000x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S200x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S256x10000_S256x10000_0_0 : ∀ a, (![0, 0] : Fin 2 → Nat) a + S256x10000.size a ≤ S256x10000.size a
  h_S256x10000 : 0 < S256x10000.numel
  inb_S256x128_S256x128_0_0 : ∀ a, (![0, 0] : Fin 2 → Nat) a + S256x128.size a ≤ S256x128.size a
  h_S256x128 : 0 < S256x128.numel
  transposes_S128x128_S128x128_1_0 : S128x128.Transposes [1, 0] S128x128
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S200x2048_S200x2048_0_0 : ∀ a, (![0, 0] : Fin 2 → Nat) a + S200x2048.size a ≤ S200x2048.size a
  h_S200x2048 : 0 < S200x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S200x128_S200x128_0_0 : ∀ a, (![0, 0] : Fin 2 → Nat) a + S200x128.size a ≤ S200x128.size a
  h_S200x128 : 0 < S200x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  dot_S256x10000_S10000x128_S256x128_1_0_0_1_n_n_wf : DotDims.WF S256x10000 S10000x128 S256x128 [1] [0] [0] [1] [] []
  dot_S200x10000_S10000x128_S200x128_1_0_0_1_n_n_wf : DotDims.WF S200x10000 S10000x128 S200x128 [1] [0] [0] [1] [] []
  dot_S200x2048_S2048x128_S200x128_1_0_0_1_n_n_wf : DotDims.WF S200x2048 S2048x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S2048x10000.size a
  hwx0_0 : ∀ i : grid0.Coords, EltTy.bits .f32 = 32 ∨ (Rect.block (s := S2048x10000) S256x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x10000.size a ≤ S2048x10000.size a
  hwx0_1 : ∀ i : grid0.Coords, EltTy.bits .f32 = 32 ∨ (Rect.block (s := S2048x10000) S256x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S2048x128.size a
  hwx0_3 : ∀ i : grid0.Coords, EltTy.bits .f32 = 32 ∨ (Rect.block (s := S2048x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S2048x128.size a
  hwx0_4 : ∀ i : grid0.Coords, EltTy.bits .f32 = 32 ∨ (Rect.block (s := S2048x128) S256x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x2048.size a ≤ S10000x2048.size a
  hwx1_1 : ∀ i : grid1.Coords, EltTy.bits .f32 = 32 ∨ (Rect.block (s := S10000x2048) S200x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x2048.size a ≤ S10000x2048.size a
  hwx1_2 : ∀ i : grid1.Coords, EltTy.bits .f32 = 32 ∨ (Rect.block (s := S10000x2048) S200x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .bf16 = 32 ∨ (Rect.block (s := S10000x128) S10000x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .f32 = 32 ∨ (Rect.block (s := S10000x128) S200x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S2048x128.size a
  hwx1_5 : ∀ i : grid1.Coords, EltTy.bits .bf16 = 32 ∨ (Rect.block (s := S2048x128) S2048x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x128.size a ≤ S2048x128.size a
  hwx1_6 : ∀ i : grid1.Coords, EltTy.bits .bf16 = 32 ∨ (Rect.block (s := S2048x128) S2048x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .bf16 = 32 ∨ (Rect.block (s := S128x128) S128x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S200x128.size a ≤ S10000x128.size a
  hwx1_11 : ∀ i : grid1.Coords, EltTy.bits .f32 = 32 ∨ (Rect.block (s := S10000x128) S200x128.size (cc1_transform_11 i) (hinb1_11 i)).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x2048_S2048x128_S200x128_1_0_0_1_n_n : DotDims S200x2048 S2048x128 S200x128 where
  lhsContracting := [1]
  rhsContracting := [0]
  lhsNonContracting := [0]
  rhsNonContracting := [1]
  lhsBatch := []
  rhsBatch := []
  wf := dot_S200x2048_S2048x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg2) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S200x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S200x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S10000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S200x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S2048x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S2048x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S200x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S2048x10000 : Shape := ⟨2, ![2048, 10000]⟩
abbrev S10000x2048 : Shape := ⟨2, ![10000, 2048]⟩
abbrev S128x128 : Shape := ⟨2, ![128, 128]⟩
abbrev S128 : Shape := ⟨1, ![128]⟩
abbrev S2048x128 : Shape := ⟨2, ![2048, 128]⟩
abbrev S1x128 : Shape := ⟨2, ![1, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S2048x10000, .f32⟩
  | .hbm, ⟨3, _⟩ => ⟨S10000x2048, .f32⟩
  | .hbm, ⟨4, _⟩ => ⟨S2048x10000, .f32⟩
  | .hbm, ⟨5, _⟩ => ⟨S10000x2048, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x128, .f32⟩
  | .hbm, ⟨11, _⟩ => ⟨S2048x128, .f32⟩
  | .hbm, ⟨12, _⟩ => ⟨S10000x128, .f32⟩
  | .hbm, ⟨13, _⟩ => ⟨S2048x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S128x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S_, .f32⟩
  | .hbm, ⟨25, _⟩ => ⟨S10000x128, .f32⟩
  | .hbm, ⟨26, _⟩ => ⟨S10000x128, .i1⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S128x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S_, .f32⟩
  | .hbm, ⟨39, _⟩ => ⟨S10000x128, .f32⟩
  | .hbm, ⟨40, _⟩ => ⟨S10000x128, .i1⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_v21 : Ref sig .tc := ⟨.hbm, 45, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S2048x10000_S10000x128_S2048x128_1_0_0_1_n_n_wf : DotDims.WF S2048x10000 S10000x128 S2048x128 [1] [0] [0] [1] [] []
  dot_S10000x2048_S2048x128_S10000x128_1_0_0_1_n_n_wf : DotDims.WF S10000x2048 S2048x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S2048x10000_S10000x128_S2048x128_1_0_0_1_n_n : DotDims S2048x10000 S10000x128 S2048x128 where
  lhsContracting := [1]
  rhsContracting := [0]
  lhsNonContracting := [0]
  rhsNonContracting := [1]
  lhsBatch := []
  rhsBatch := []
  wf := dot_S2048x10000_S10000x128_S2048x128_1_0_0_1_n_n_wf
def dot_S10000x2048_S2048x128_S10000x128_1_0_0_1_n_n : DotDims S10000x2048 S2048x128 S10000x128 where
  lhsContracting := [1]
  rhsContracting := [0]
  lhsNonContracting := [0]
  rhsNonContracting := [1]
  lhsBatch := []
  rhsBatch := []
  wf := dot_S10000x2048_S2048x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibPlainDot.lean ====
import Idealize.ShloMosaic.PureOps.Ideal
import Idealize.ShloMosaic.PureOps.Ideal.Laws
import Idealize.ShloMosaic.Lib.ValueIdx

/-!
# A plain matrix product read as a sum over the inner coordinate

General facts, over the extended reals and arbitrary extents.

A rank-2 array is read by its two coordinates (`cur`), and a function of two coordinates is an array (`unc`).
The product of an `a × K` by a `K × b` matrix is, at `(p, q)`, the sum over `k : Fin K` of `L p k * R k q` (`mm`).
For dimension numbers that contract the left operand's axis 1 with the right operand's axis 0 and have no batch
axis, both a matrix unit's product accumulated into the zero splat and a host `dot_general` are, at the exact
values, that sum: neither a rounding nor an order of summation is left in it.
-/

noncomputable section

open Idealize.ShloMosaic Idealize.ShloMosaic.ValueIdx

namespace PlainDot

/-- A rank-2 array read by its two coordinates. -/
abbrev cur {a b : Nat} (X : (⟨2, ![a, b]⟩ : Shape).Idx → EReal) : Fin a → Fin b → EReal := fun p q => X (ix2 p q)

/-- A function of two coordinates as a rank-2 array. -/
abbrev unc {a b : Nat} (f : Fin a → Fin b → EReal) : (⟨2, ![a, b]⟩ : Shape).Idx → EReal := fun j => f (j 0) (j 1)

theorem unc_cur {a b : Nat} (X : (⟨2, ![a, b]⟩ : Shape).Idx → EReal) : unc (cur X) = X :=
  funext fun j => congrArg X (eq_ix2 j).symm

theorem cur_unc {a b : Nat} (f : Fin a → Fin b → EReal) : cur (unc f) = f := rfl

/-- The matrix product at `(p, q)`: the sum over the inner coordinate. -/
def mm {a K b : Nat} (L : Fin a → Fin K → EReal) (R : Fin K → Fin b → EReal) (p : Fin a) (q : Fin b) : EReal :=
  ∑ k : Fin K, L p k * R k q

/-- Row `p` of a product depends on row `p` of the left factor only. -/
theorem mm_row {a a' K b : Nat} (L : Fin a → Fin K → EReal) (L' : Fin a' → Fin K → EReal) (R : Fin K → Fin b → EReal)
    (p : Fin a) (p' : Fin a') (h : L p = L' p') (q : Fin b) : mm L R p q = mm L' R p' q := by
  unfold mm; rw [h]

section Dims

variable {M K N : Nat} (D : DotDims ⟨2, ![M, K]⟩ ⟨2, ![K, N]⟩ ⟨2, ![M, N]⟩)

/-- The dimension numbers of a plain product: the left operand's axis 1 against the right operand's axis 0. -/
structure IsPlain : Prop where
  lc : D.lhsContracting = [1]
  rc : D.rhsContracting = [0]
  ln : D.lhsNonContracting = [0]
  rn : D.rhsNonContracting = [1]
  lb : D.lhsBatch = []
  rb : D.rhsBatch = []

theorem contr_rank (h : IsPlain D) : D.contr.rank = 1 := by
  rw [D.rank_contr, h.lc]; rfl

theorem contr_size (h : IsPlain D) : D.contr.size ⟨0, by rw [contr_rank D h]; exact Nat.one_pos⟩ = K := by
  rw [D.size_contr 0 (by rw [h.lc]; exact Nat.one_pos)]
  simp only [h.lc]
  rfl

/-- The contraction index of a plain product is its one coordinate. -/
def kEquiv (h : IsPlain D) : D.contr.Idx ≃ Fin K := contrEquiv1 D K (contr_rank D h) (contr_size D h)

theorem kEquiv_val (h : IsPlain D) (k : D.contr.Idx) :
    (kEquiv D h k).val = (k ⟨0, by rw [contr_rank D h]; exact Nat.one_pos⟩).val := rfl

theorem lhsIdx_eq (h : IsPlain D) (p : Fin M) (q : Fin N) (k : D.contr.Idx) :
    D.lhsIdx (ix2 p q) k = ix2 p (kEquiv D h k) := by
  funext a
  apply Fin.ext
  match a with
  | ⟨0, _⟩ =>
    show (D.lhsIdx (ix2 p q) k (0 : Fin 2)).val = p.val
    unfold DotDims.lhsIdx
    rw [dif_neg (by rw [h.lb]; exact List.not_mem_nil), dif_pos (by rw [h.ln]; exact List.mem_singleton.mpr rfl)]
    simp only [Fin.val_cast]
    have key : ∀ (x : Nat) (hx : x < 2), x = 0 → ((ix2 p q : (⟨2, ![M, N]⟩ : Shape).Idx) ⟨x, hx⟩).val = p.val := by
      intro x hx e; subst e; rfl
    exact key _ _ (by simp [h.lb, h.ln])
  | ⟨1, _⟩ =>
    show (D.lhsIdx (ix2 p q) k (1 : Fin 2)).val = (kEquiv D h k).val
    rw [D.lhsIdx_val_of_single h.lc, kEquiv_val]

theorem rhsIdx_eq (h : IsPlain D) (p : Fin M) (q : Fin N) (k : D.contr.Idx) :
    D.rhsIdx (ix2 p q) k = ix2 (kEquiv D h k) q := by
  funext a
  apply Fin.ext
  match a with
  | ⟨0, _⟩ =>
    show (D.rhsIdx (ix2 p q) k (0 : Fin 2)).val = (kEquiv D h k).val
    rw [D.rhsIdx_val_of_single h.rc, kEquiv_val]
  | ⟨1, _⟩ =>
    show (D.rhsIdx (ix2 p q) k (1 : Fin 2)).val = q.val
    unfold DotDims.rhsIdx
    rw [dif_neg (by rw [h.rb]; exact List.not_mem_nil), dif_pos (by rw [h.rn]; exact List.mem_singleton.mpr rfl)]
    simp only [Fin.val_cast]
    have key : ∀ (x : Nat) (hx : x < 2), x = 1 → ((ix2 p q : (⟨2, ![M, N]⟩ : Shape).Idx) ⟨x, hx⟩).val = q.val := by
      intro x hx e; subst e; rfl
    exact key _ _ (by simp [h.lb, h.ln, h.rn])

/-- The contraction sum of a plain product, re-indexed to the inner coordinate. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = mm (cur l) (cur r) p q := by
  unfold mm
  rw [← Equiv.sum_comp (kEquiv D h)]
  exact Finset.sum_congr rfl fun k _ => by rw [lhsIdx_eq D h, rhsIdx_eq D h]

/-- A matrix unit's product into the zero splat, at the exact values, is the matrix product. -/
theorem matmul_zero {φ₁ φ₂ : FTy} (h : IsPlain D) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = unc (mm (cur l) (cur r)) := by
  funext j
  obtain ⟨p, q, rfl⟩ : ∃ (p : Fin M) (q : Fin N), j = ix2 p q := ⟨j 0, j 1, eq_ix2 j⟩
  rw [Ideal.matmul_constant_zero_apply]
  exact sum_contr D h l r p q

/-- A host `dot_general`, at the exact values, is the matrix product. -/
theorem dotGeneral {φ₁ φ₂ : FTy} (h : IsPlain D) (prec : Option ContractPrecision) (sched : HostSchedule)
    (l : FVec Ideal ⟨2, ![M, K]⟩ φ₁) (r : FVec Ideal ⟨2, ![K, N]⟩ φ₂) :
    FloatOps.dotGeneral D prec sched l r = unc (mm (cur l) (cur r)) := by
  funext j
  obtain ⟨p, q, rfl⟩ : ∃ (p : Fin M) (q : Fin N), j = ix2 p q := ⟨j 0, j 1, eq_ix2 j⟩
  rw [Ideal.dotGeneral_apply]
  exact sum_contr D h l r p q

end Dims

end PlainDot

end
-- ==== Proof.Spec.lean ====
import proofs.«175670_g32117765440056_cont_sun_m_480_2_alg».proof.Proof.LibPlainDot

/-!
# What both programs compute, element by element

`n` entities, `h` hyperedges, embeddings of width `d`. With `E` the embeddings, `A` the entity adjacency,
`p1, l1 : h × n` and `p2, l2 : n × h` the two incidence pairs:

  side = (A·E + p2·(p1·E)) + l2·(l1·E)
  s    = (E + side)·W1ᵀ + b1          b = (E ∘ side)·W2ᵀ + b2
  out  = φ(s) + φ(b)                  φ x = x where x ≥ 0, else α·x

Row `i` of the result depends on row `i` of `A`, `p2`, `l2` and `E`, and on the whole of `E`, `p1·E`, `l1·E`,
the transposed weights and the biases: `outRowK` is that function of one row's data. One program adds `φ(s) + φ(b)`,
the other `φ(b) + φ(s)` (`outRowR`); addition of extended reals commutes, and nothing else separates them.
-/

noncomputable section

open Idealize.ShloMosaic Idealize.ShloMosaic.ValueIdx PlainDot

namespace Cert.Spec

variable {n h d : Nat}

/-- The activation, with the comparison against the zero word and the slope word both programs print. -/
def lrelu (x : EReal) : EReal :=
  Scalar.select (FloatOps.cmpf (F := Ideal) (φ := .f32) .oge x (Ideal.ofBits .f32 0x00000000#32)) x
    (Ideal.ofBits .f32 0x3C23D70A#32 * x)

/-- One row of the aggregate `(A·E + p2·P) + l2·L`, at column `k`. -/
def sideRow (Arow : Fin n → EReal) (p2row l2row : Fin h → EReal) (E : Fin n → Fin d → EReal)
    (P L : Fin h → Fin d → EReal) (k : Fin d) : EReal :=
  ((∑ x : Fin n, Arow x * E x k) + ∑ y : Fin h, p2row y * P y k) + ∑ y : Fin h, l2row y * L y k

/-- One row of `(E + side)·W1ᵀ + b1`, at column `q`. -/
def sumBranch (erow s : Fin d → EReal) (W1T : Fin d → Fin d → EReal) (b1 : Fin d → EReal) (q : Fin d) : EReal :=
  (∑ k : Fin d, (erow k + s k) * W1T k q) + b1 q

/-- One row of `(E ∘ side)·W2ᵀ + b2`, at column `q`. -/
def biBranch (erow s : Fin d → EReal) (W2T : Fin d → Fin d → EReal) (b2 : Fin d → EReal) (q : Fin d) : EReal :=
  (∑ k : Fin d, (erow k * s k) * W2T k q) + b2 q

/-- One element of the result, the sum branch's activation first. -/
def outRowK (Arow : Fin n → EReal) (p2row l2row : Fin h → EReal) (erow : Fin d → EReal) (E : Fin n → Fin d → EReal)
    (P L : Fin h → Fin d → EReal) (W1T : Fin d → Fin d → EReal) (b1 : Fin d → EReal) (W2T : Fin d → Fin d → EReal)
    (b2 : Fin d → EReal) (q : Fin d) : EReal :=
  lrelu (sumBranch erow (sideRow Arow p2row l2row E P L) W1T b1 q)
    + lrelu (biBranch erow (sideRow Arow p2row l2row E P L) W2T b2 q)

/-- The same element, the interaction branch's activation first. -/
def outRowR (Arow : Fin n → EReal) (p2row l2row : Fin h → EReal) (erow : Fin d → EReal) (E : Fin n → Fin d → EReal)
    (P L : Fin h → Fin d → EReal) (W1T : Fin d → Fin d → EReal) (b1 : Fin d → EReal) (W2T : Fin d → Fin d → EReal)
    (b2 : Fin d → EReal) (q : Fin d) : EReal :=
  lrelu (biBranch erow (sideRow Arow p2row l2row E P L) W2T b2 q)
    + lrelu (sumBranch erow (sideRow Arow p2row l2row E P L) W1T b1 q)

/-- The two orders agree: addition of extended reals commutes. -/
theorem outRowK_eq_outRowR (Arow : Fin n → EReal) (p2row l2row : Fin h → EReal) (erow : Fin d → EReal)
    (E : Fin n → Fin d → EReal) (P L : Fin h → Fin d → EReal) (W1T : Fin d → Fin d → EReal) (b1 : Fin d → EReal)
    (W2T : Fin d → Fin d → EReal) (b2 : Fin d → EReal) (q : Fin d) :
    outRowK Arow p2row l2row erow E P L W1T b1 W2T b2 q = outRowR Arow p2row l2row erow E P L W1T b1 W2T b2 q :=
  add_comm _ _

/-- The whole result from the ten arguments read by coordinates, the sum branch first. -/
def outK (E : Fin n → Fin d → EReal) (A : Fin n → Fin n → EReal) (p1 : Fin h → Fin n → EReal) (p2 : Fin n → Fin h → EReal)
    (l1 : Fin h → Fin n → EReal) (l2 : Fin n → Fin h → EReal) (W1 : Fin d → Fin d → EReal) (b1 : Fin d → EReal)
    (W2 : Fin d → Fin d → EReal) (b2 : Fin d → EReal) (i : Fin n) (q : Fin d) : EReal :=
  outRowK (A i) (p2 i) (l2 i) (E i) E (mm p1 E) (mm l1 E) (fun k j => W1 j k) b1 (fun k j => W2 j k) b2 q

/-- The whole result, the interaction branch first. -/
def outR (E : Fin n → Fin d → EReal) (A : Fin n → Fin n → EReal) (p1 : Fin h → Fin n → EReal) (p2 : Fin n → Fin h → EReal)
    (l1 : Fin h → Fin n → EReal) (l2 : Fin n → Fin h → EReal) (W1 : Fin d → Fin d → EReal) (b1 : Fin d → EReal)
    (W2 : Fin d → Fin d → EReal) (b2 : Fin d → EReal) (i : Fin n) (q : Fin d) : EReal :=
  outRowR (A i) (p2 i) (l2 i) (E i) E (mm p1 E) (mm l1 E) (fun k j => W1 j k) b1 (fun k j => W2 j k) b2 q

theorem outK_eq_outR (E : Fin n → Fin d → EReal) (A : Fin n → Fin n → EReal) (p1 : Fin h → Fin n → EReal)
    (p2 : Fin n → Fin h → EReal) (l1 : Fin h → Fin n → EReal) (l2 : Fin n → Fin h → EReal) (W1 : Fin d → Fin d → EReal)
    (b1 : Fin d → EReal) (W2 : Fin d → Fin d → EReal) (b2 : Fin d → EReal) :
    outK E A p1 p2 l1 l2 W1 b1 W2 b2 = outR E A p1 p2 l1 l2 W1 b1 W2 b2 :=
  funext fun _ => funext fun _ => outRowK_eq_outRowR ..

end Cert.Spec

end
-- ==== Proof.Region0.lean ====
import proofs.«175670_g32117765440056_cont_sun_m_480_2_alg».proof.Proof.Gen.KernelIdeal.Frame
import proofs.«175670_g32117765440056_cont_sun_m_480_2_alg».proof.Proof.Spec
import Idealize.ShloMosaic.Lib.Pipeline.Value
import Idealize.ShloMosaic.Lib.ValueLayout

/-!
# The first stage: the two incidence products

The first stage runs over 8 row blocks of 256 hyperedges. At each it multiplies the block's rows of `proj1` and of
`lib1` by the whole embedding matrix (its sixteen-bit copy, the same numbers at the exact values) and writes the two
256 × 128 products back as the block's rows of the two results. Row `p` of a block's product is row `256 t + p` of the
full product, and the 8 blocks cover the 2048 rows, so after the stage the two result arrays hold `proj1 · E` and
`lib1 · E`.
-/

set_option maxRecDepth 16384

noncomputable section

open Idealize.ShloMosaic Idealize.ShloMosaic.TcCoe Idealize.ShloMosaic.ValueIdx
open Idealize.SL Idealize.SL.Sem
open Idealize.ShloMosaic.Pipeline (Dat Cfg Window)
open PlainDot

namespace Cert.KernelIdeal.Region0

open Cert.KernelIdeal Cert.KernelIdeal.Gen

variable (V : (c : Dev nD) → (b : Ref sig .tc) → Buf (Elt Ideal) ((c : Thread nD τ).loc b))

/-- The three arrays region 0 reads, as it finds them, each at its literal type. -/
abbrev proj1 (c : Dev nD) : Vec Ideal S2048x10000 .f32 := V c main_arg2
abbrev lib1 (c : Dev nD) : Vec Ideal S2048x10000 .f32 := V c main_arg4
abbrev egoB (c : Dev nD) : Vec Ideal S10000x128 .bf16 := V c main_v0

/-- The zero offset, as the constant function. -/
theorem hz : (![0, 0] : Fin 2 → Nat) = fun _ => 0 := funext fun a => by fin_cases a <;> rfl

/-- The first product's payload: the block of the left factor times the right factor, as the sum over the
    inner coordinate (a change of format is the identity at the exact values). -/
theorem pay2_eq (x2 : Vec Ideal S10000x128 .bf16) (x0 : Vec Ideal S256x10000 .f32) :
    k0_pay2 x2 x0 = unc (mm (cur x0) (cur x2)) := by
  unfold k0_pay2 k0_pay1
  rw [shapeCast_self]
  exact PlainDot.matmul_zero _ ⟨rfl, rfl, rfl, rfl, rfl, rfl⟩ none _ _

/-- The second product's payload, likewise. -/
theorem pay3_eq (x2 : Vec Ideal S10000x128 .bf16) (x1 : Vec Ideal S256x10000 .f32) :
    k0_pay3 x2 x1 = unc (mm (cur x1) (cur x2)) := by
  unfold k0_pay3 k0_pay1
  rw [shapeCast_self]
  exact PlainDot.matmul_zero _ ⟨rfl, rfl, rfl, rfl, rfl, rfl⟩ none _ _

/-- What the body leaves in the first result's block: the first left block times the right factor. -/
theorem out3_eq (x0 x1 : Vec Ideal S256x10000 .f32) (x2 : Vec Ideal S10000x128 .bf16) :
    out0_3 x0 x1 x2 = unc (mm (cur x0) (cur x2)) := by
  unfold out0_3
  rw [View.canon_unit_zero hz]
  simp only [View.ld_unit_zero (S := S10000x128) hz, View.ld_unit_zero (S := S256x10000) hz]
  exact pay2_eq x2 x0

/-- What the body leaves in the second result's block: the second left block times the right factor. -/
theorem out4_eq (x0 x1 : Vec Ideal S256x10000 .f32) (x2 : Vec Ideal S10000x128 .bf16) :
    out0_4 x0 x1 x2 = unc (mm (cur x1) (cur x2)) := by
  unfold out0_4
  rw [View.canon_unit_zero hz]
  simp only [View.ld_unit_zero (S := S10000x128) hz, View.ld_unit_zero (S := S256x10000) hz]
  exact pay3_eq x2 x1

/-- The index maps over the grid: at point `t` the left factors' blocks and the results' blocks are block
    `(t, 0)`, the right factor's block is `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A block of 256 consecutive rows of the left factor, times the whole right factor, is the same 256 rows of
    the full product: row `p` of the block's product is row `b * 256 + p` of the array's. -/
theorem block_rows (X : Vec Ideal S2048x10000 .f32) (R : Vec Ideal S10000x128 .bf16)
    (xb : Vec Ideal S256x10000 .f32) (rb : Vec Ideal S10000x128 .bf16) (b : Nat) (hb : b < 8)
    (hx : ∀ (p : Fin 256) (k : Fin 10000), xb (ix2 p k) = X (ix2 (⟨b * 256 + p.val, by omega⟩ : Fin 2048) k))
    (hr : rb = R) (p : Fin 256) (q : Fin 128) :
    mm (cur xb) (cur rb) p q = mm (cur X) (cur R) (⟨b * 256 + p.val, by omega⟩ : Fin 2048) q := by
  subst hr
  exact mm_row _ _ _ p _ (funext fun k => hx p k) q

/-- The grid has 8 points. -/
theorem t_lt (t : Fin cfg0.N) : t.val < 8 := lt_of_lt_of_eq t.isLt N_0

/-- The right factor's window is the whole array at every point. -/
theorem ego_blk (c : Dev nD) (t : Fin cfg0.N) : (iblk0 V c 2 t : Vec Ideal S10000x128 .bf16) = egoB V c := by
  obtain ⟨-, -, -, -, e0, e1, -, -, -, -⟩ := idx_facts t
  funext j
  show V c (Pipeline.arrRef spec0 2) (((cfg0.win 2).blk t).view.emb j) = V c main_v0 j
  refine congrArg (V c main_v0) ?_
  funext a; apply Fin.ext
  match a with
  | ⟨0, _⟩ => show win0_2.index t (0 : Fin 2) * 10000 + 1 * (j 0).val = (j 0).val; omega
  | ⟨1, _⟩ => show win0_2.index t (1 : Fin 2) * 128 + 1 * (j 1).val = (j 1).val; omega

/-- The first left factor's block at point `t` is its rows `256 t … 256 t + 255`. -/
theorem proj1_blk (c : Dev nD) (t : Fin cfg0.N) (p : Fin 256) (k : Fin 10000) :
    (iblk0 V c 0 t : Vec Ideal S256x10000 .f32) (ix2 p k)
      = proj1 V c (ix2 (⟨t.val * 256 + p.val, by have := t_lt t; omega⟩ : Fin 2048) k) := by
  obtain ⟨e0, e1, -, -, -, -, -, -, -, -⟩ := idx_facts t
  show V c (Pipeline.arrRef spec0 0) (((cfg0.win 0).blk t).view.emb (ix2 p k)) = V c main_arg2 _
  refine congrArg (V c main_arg2) ?_
  funext a; apply Fin.ext
  match a with
  | ⟨0, _⟩ => show win0_0.index t (0 : Fin 2) * 256 + 1 * p.val = t.val * 256 + p.val; omega
  | ⟨1, _⟩ => show win0_0.index t (1 : Fin 2) * 10000 + 1 * k.val = k.val; omega

/-- The second left factor's block at point `t` is its rows `256 t … 256 t + 255`. -/
theorem lib1_blk (c : Dev nD) (t : Fin cfg0.N) (p : Fin 256) (k : Fin 10000) :
    (iblk0 V c 1 t : Vec Ideal S256x10000 .f32) (ix2 p k)
      = lib1 V c (ix2 (⟨t.val * 256 + p.val, by have := t_lt t; omega⟩ : Fin 2048) k) := by
  obtain ⟨-, -, e0, e1, -, -, -, -, -, -⟩ := idx_facts t
  show V c (Pipeline.arrRef spec0 1) (((cfg0.win 1).blk t).view.emb (ix2 p k)) = V c main_arg4 _
  refine congrArg (V c main_arg4) ?_
  funext a; apply Fin.ext
  match a with
  | ⟨0, _⟩ => show win0_1.index t (0 : Fin 2) * 256 + 1 * p.val = t.val * 256 + p.val; omega
  | ⟨1, _⟩ => show win0_1.index t (1 : Fin 2) * 10000 + 1 * k.val = k.val; omega

/-- What point `t` writes back to the first result array is block `t` of `proj1 · ego`. -/
theorem flushedP_eq (c : Dev nD) (t : Fin cfg0.N) :
    (dat0 (F := Ideal) V c).flushed 3 t
      = ((cfg0.win 3).blk t).view.read (Elt Ideal) (unc (mm (cur (proj1 V c)) (cur (egoB V c)))) := by
  show (cfg0.win 3).cut (grid0.coords t) ((dat0 (F := Ideal) V c).after 3 t) = _
  rw [after0_3]
  refine (congrArg ((cfg0.win 3).cut (grid0.coords t)) (out3_eq (iblk0 V c 0 t) (iblk0 V c 1 t) (iblk0 V c 2 t))).trans ?_
  obtain ⟨-, -, -, -, -, -, e0, e1, -, -⟩ := idx_facts t
  have ht := t_lt t
  funext y
  obtain ⟨p, q, rfl⟩ : ∃ (p : Fin 256) (q : Fin 128), y = ix2 p q := ⟨y 0, y 1, eq_ix2 y⟩
  have h3 : ((cfg0.win 3).blk t).view.emb (ix2 p q) = ix2 (⟨t.val * 256 + p.val, by omega⟩ : Fin 2048) q := by
    funext a; apply Fin.ext
    match a with
    | ⟨0, _⟩ => show win0_3.index t (0 : Fin 2) * 256 + 1 * p.val = t.val * 256 + p.val; omega
    | ⟨1, _⟩ => show win0_3.index t (1 : Fin 2) * 128 + 1 * q.val = q.val; omega
  show mm (cur (iblk0 V c 0 t)) (cur (iblk0 V c 2 t)) p q
      = unc (mm (cur (proj1 V c)) (cur (egoB V c))) (((cfg0.win 3).blk t).view.emb (ix2 p q))
  rw [h3]
  exact block_rows (proj1 V c) (egoB V c) (iblk0 V c 0 t) (iblk0 V c 2 t) t.val ht (proj1_blk V c t) (ego_blk V c t) p q

/-- What point `t` writes back to the second result array is block `t` of `lib1 · ego`. -/
theorem flushedL_eq (c : Dev nD) (t : Fin cfg0.N) :
    (dat0 (F := Ideal) V c).flushed 4 t
      = ((cfg0.win 4).blk t).view.read (Elt Ideal) (unc (mm (cur (lib1 V c)) (cur (egoB V c)))) := by
  show (cfg0.win 4).cut (grid0.coords t) ((dat0 (F := Ideal) V c).after 4 t) = _
  rw [after0_4]
  refine (congrArg ((cfg0.win 4).cut (grid0.coords t)) (out4_eq (iblk0 V c 0 t) (iblk0 V c 1 t) (iblk0 V c 2 t))).trans ?_
  obtain ⟨-, -, -, -, -, -, -, -, e0, e1⟩ := idx_facts t
  have ht := t_lt t
  funext y
  obtain ⟨p, q, rfl⟩ : ∃ (p : Fin 256) (q : Fin 128), y = ix2 p q := ⟨y 0, y 1, eq_ix2 y⟩
  have h4 : ((cfg0.win 4).blk t).view.emb (ix2 p q) = ix2 (⟨t.val * 256 + p.val, by omega⟩ : Fin 2048) q := by
    funext a; apply Fin.ext
    match a with
    | ⟨0, _⟩ => show win0_4.index t (0 : Fin 2) * 256 + 1 * p.val = t.val * 256 + p.val; omega
    | ⟨1, _⟩ => show win0_4.index t (1 : Fin 2) * 128 + 1 * q.val = q.val; omega
  show mm (cur (iblk0 V c 1 t)) (cur (iblk0 V c 2 t)) p q
      = unc (mm (cur (lib1 V c)) (cur (egoB V c))) (((cfg0.win 4).blk t).view.emb (ix2 p q))
  rw [h4]
  exact block_rows (lib1 V c) (egoB V c) (iblk0 V c 1 t) (iblk0 V c 2 t) t.val ht (lib1_blk V c t) (ego_blk V c t) p q

/-- An index of the first result array is in point `t`'s block iff each coordinate is in the block's range. -/
theorem mem_blkP (t : Fin cfg0.N) (i : S2048x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v1_0).slice (win0_3.rect t)).set ↔ _
  rw [View.set_slice_whole, Rect.mem_set_unit]
  exact Iff.rfl

/-- The same of the second result array. -/
theorem mem_blkL (t : Fin cfg0.N) (i : S2048x128.Idx) :
    i ∈ ((cfg0.win 4).blk t).view.set ↔ ∀ a : Fin 2, win0_4.index t a * S256x128.size a ≤ (i a).val ∧ (i a).val < win0_4.index t a * S256x128.size a + S256x128.size a := by
  show i ∈ ((View.whole main_v1_1).slice (win0_4.rect t)).set ↔ _
  rw [View.set_slice_whole, Rect.mem_set_unit]
  exact Iff.rfl

/-- The point whose block holds row `r`: `r / 256`. -/
def ptOf (i : S2048x128.Idx) : Fin cfg0.N :=
  ⟨(i 0).val / 256, by have h : (i 0).val < 2048 := (i 0).isLt; show _ < grid0.N; rw [N_0]; omega⟩

theorem ptOf_val (i : S2048x128.Idx) : (ptOf i).val = (i 0).val / 256 := rfl

/-- Every index of the first result array is in the block of the point `row / 256`, which writes it back. -/
theorem coverP (i : S2048x128.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  obtain ⟨-, -, -, -, -, -, e0, e1, -, -⟩ := idx_facts (ptOf i)
  have hv := ptOf_val i
  refine ⟨ptOf i, flush0_3 (ptOf i), ?_⟩
  rw [mem_blkP]
  intro a
  match a with
  | ⟨0, _⟩ => show win0_3.index (ptOf i) (0 : Fin 2) * 256 ≤ (i 0).val ∧ (i 0).val < win0_3.index (ptOf i) (0 : Fin 2) * 256 + 256; omega
  | ⟨1, _⟩ => show win0_3.index (ptOf i) (1 : Fin 2) * 128 ≤ (i 1).val ∧ (i 1).val < win0_3.index (ptOf i) (1 : Fin 2) * 128 + 128; omega

/-- The same of the second result array. -/
theorem coverL (i : S2048x128.Idx) :
    ∃ t : Fin cfg0.N, (cfg0.win 4).flush t = true ∧ i ∈ ((cfg0.win 4).blk t).view.set := by
  have hi0 : (i 0).val < 2048 := (i 0).isLt
  have hi1 : (i 1).val < 128 := (i 1).isLt
  obtain ⟨-, -, -, -, -, -, -, -, e0, e1⟩ := idx_facts (ptOf i)
  have hv := ptOf_val i
  refine ⟨ptOf i, flush0_4 (ptOf i), ?_⟩
  rw [mem_blkL]
  intro a
  match a with
  | ⟨0, _⟩ => show win0_4.index (ptOf i) (0 : Fin 2) * 256 ≤ (i 0).val ∧ (i 0).val < win0_4.index (ptOf i) (0 : Fin 2) * 256 + 256; omega
  | ⟨1, _⟩ => show win0_4.index (ptOf i) (1 : Fin 2) * 128 ≤ (i 1).val ∧ (i 1).val < win0_4.index (ptOf i) (1 : Fin 2) * 128 + 128; omega

/-- After region 0 its first result array holds `proj1 · ego`. -/
theorem P_arr (c : Dev nD) :
    (dat0 (F := Ideal) V c).arrAt 3 cfg0.N = (unc (mm (cur (proj1 V c)) (cur (egoB V c))) : S2048x128.Idx → EReal) :=
  (dat0 (F := Ideal) V c).arrAt_eq_of_cover 3 _ (fun t _ => flushedP_eq V c t) coverP

/-- After region 0 its second result array holds `lib1 · ego`. -/
theorem L_arr (c : Dev nD) :
    (dat0 (F := Ideal) V c).arrAt 4 cfg0.N = (unc (mm (cur (lib1 V c)) (cur (egoB V c))) : S2048x128.Idx → EReal) :=
  (dat0 (F := Ideal) V c).arrAt_eq_of_cover 4 _ (fun t _ => flushedL_eq V c t) coverL

end Cert.KernelIdeal.Region0

end
-- ==== Proof.Region1.lean ====
import proofs.«175670_g32117765440056_cont_sun_m_480_2_alg».proof.Proof.Gen.KernelIdeal.Frame
import proofs.«175670_g32117765440056_cont_sun_m_480_2_alg».proof.Proof.Spec
import Idealize.ShloMosaic.Lib.Pipeline.Value
import Idealize.ShloMosaic.Lib.ValueLayout

/-!
# The second stage: aggregation and the two activated branches, by row blocks

The second stage runs over 50 row blocks of 200 entities. At each it reads the block's rows of the adjacency, of the
two incidence matrices and of the embeddings, and — whole, at every point — the embeddings' sixteen-bit copy, the two
hyperedge aggregates, the two transposed weights and the two bias rows. Its body computes, for each row of the block,
the specification's row function of that row's data (three products summed into the aggregate, the sum branch and the
interaction branch each a product with a transposed weight plus a bias, the two activations added). Row `p` of block
`t` is row `200 t + p` of each streamed array, and the 50 blocks cover the 10000 rows, so after the stage the result
array holds the row function at every row.
-/

set_option maxRecDepth 16384

noncomputable section

open Idealize.ShloMosaic Idealize.ShloMosaic.TcCoe Idealize.ShloMosaic.ValueIdx
open Idealize.SL Idealize.SL.Sem
open Idealize.ShloMosaic.Pipeline (Dat Cfg Window)
open PlainDot

namespace Cert.KernelIdeal.Region1

open Cert.KernelIdeal Cert.KernelIdeal.Gen

variable (V : (c : Dev nD) → (b : Ref sig .tc) → Buf (Elt Ideal) ((c : Thread nD τ).loc b))

/-- The eleven arrays region 1 reads, as it finds them, each at its literal type. -/
abbrev adj (c : Dev nD) : Vec Ideal S10000x10000 .f32 := V c main_arg1
abbrev proj2 (c : Dev nD) : Vec Ideal S10000x2048 .f32 := V c main_arg3
abbrev lib2 (c : Dev nD) : Vec Ideal S10000x2048 .f32 := V c main_arg5
abbrev egoB (c : Dev nD) : Vec Ideal S10000x128 .bf16 := V c main_v0
abbrev ego (c : Dev nD) : Vec Ideal S10000x128 .f32 := V c main_arg0
abbrev PB (c : Dev nD) : Vec Ideal S2048x128 .bf16 := V c main_v2
abbrev LB (c : Dev nD) : Vec Ideal S2048x128 .bf16 := V c main_v3
abbrev W1T (c : Dev nD) : Vec Ideal S128x128 .bf16 := V c main_v5
abbrev b1r (c : Dev nD) : Vec Ideal S1x128 .f32 := V c main_v8
abbrev W2T (c : Dev nD) : Vec Ideal S128x128 .bf16 := V c main_v7
abbrev b2r (c : Dev nD) : Vec Ideal S1x128 .f32 := V c main_v9

/-- The zero offset, as the constant function. -/
theorem hz : (![0, 0] : Fin 2 → Nat) = fun _ => 0 := funext fun a => by fin_cases a <;> rfl

/-- A matrix unit's product into the zero splat is the matrix product. -/
theorem matmul_blk {M K N : Nat} (D : DotDims ⟨2, ![M, K]⟩ ⟨2, ![K, N]⟩ ⟨2, ![M, N]⟩) (h : IsPlain D) {φ₁ φ₂ : FTy}
    (l : FVec Ideal ⟨2, ![M, K]⟩ φ₁) (r : FVec Ideal ⟨2, ![K, N]⟩ φ₂) :
    matmul D none l r (constant ⟨2, ![M, N]⟩ .f32 0x00000000#32) = unc (mm (cur l) (cur r)) :=
  PlainDot.matmul_zero D h none l r

/-- The aggregate block, row by row. -/
theorem side_blk (x0 : Vec Ideal S200x10000 .f32) (x3 : Vec Ideal S10000x128 .bf16) (x1 : Vec Ideal S200x2048 .f32)
    (x5 : Vec Ideal S2048x128 .bf16) (x2 : Vec Ideal S200x2048 .f32) (x6 : Vec Ideal S2048x128 .bf16) :
    k1_pay2 (F := Ideal) x0 x3 x1 x5 x2 x6
      = unc (fun p k => Cert.Spec.sideRow (cur x0 p) (cur x1 p) (cur x2 p) (cur x3) (cur x5) (cur x6) k) := by
  unfold k1_pay2
  simp only [shapeCast_self]
  rw [matmul_blk dot_S200x10000_S10000x128_S200x128_1_0_0_1_n_n ⟨rfl, rfl, rfl, rfl, rfl, rfl⟩,
    matmul_blk dot_S200x2048_S2048x128_S200x128_1_0_0_1_n_n ⟨rfl, rfl, rfl, rfl, rfl, rfl⟩,
    matmul_blk dot_S200x2048_S2048x128_S200x128_1_0_0_1_n_n ⟨rfl, rfl, rfl, rfl, rfl, rfl⟩]
  funext j
  obtain ⟨p, q, rfl⟩ : ∃ (p : Fin 200) (q : Fin 128), j = ix2 p q := ⟨j 0, j 1, eq_ix2 j⟩
  rfl

/-- The sum branch's block, row by row. -/
theorem sum_blk (x0 : Vec Ideal S200x10000 .f32) (x3 : Vec Ideal S10000x128 .bf16) (x1 : Vec Ideal S200x2048 .f32)
    (x5 : Vec Ideal S2048x128 .bf16) (x2 : Vec Ideal S200x2048 .f32) (x6 : Vec Ideal S2048x128 .bf16)
    (x4 : Vec Ideal S200x128 .f32) (x7 : Vec Ideal S128x128 .bf16) (x8 : Vec Ideal S1x128 .f32) :
    k1_pay3 (F := Ideal) x0 x3 x1 x5 x2 x6 x4 x7 x8
      = unc (fun p q => Cert.Spec.sumBranch (cur x4 p)
          (Cert.Spec.sideRow (cur x0 p) (cur x1 p) (cur x2 p) (cur x3) (cur x5) (cur x6)) (cur x7)
          (fun j => x8 (ix2 (0 : Fin 1) j)) q) := by
  unfold k1_pay3
  rw [side_blk]
  simp only [shapeCast_self]
  rw [matmul_blk dot_S200x128_S128x128_S200x128_1_0_0_1_n_n ⟨rfl, rfl, rfl, rfl, rfl, rfl⟩]
  funext j
  obtain ⟨p, q, rfl⟩ : ∃ (p : Fin 200) (q : Fin 128), j = ix2 p q := ⟨j 0, j 1, eq_ix2 j⟩
  rw [addf_apply, broadcastTo_1b_ab_apply]
  rfl

/-- The interaction branch's product block, row by row: the bias is added where the activation is taken. -/
theorem bi_blk (x0 : Vec Ideal S200x10000 .f32) (x3 : Vec Ideal S10000x128 .bf16) (x1 : Vec Ideal S200x2048 .f32)
    (x5 : Vec Ideal S2048x128 .bf16) (x2 : Vec Ideal S200x2048 .f32) (x6 : Vec Ideal S2048x128 .bf16)
    (x4 : Vec Ideal S200x128 .f32) (x9 : Vec Ideal S128x128 .bf16) :
    k1_pay4 (F := Ideal) x0 x3 x1 x5 x2 x6 x4 x9
      = unc (mm (fun p k => cur x4 p k
          * Cert.Spec.sideRow (cur x0 p) (cur x1 p) (cur x2 p) (cur x3) (cur x5) (cur x6) k) (cur x9)) := by
  unfold k1_pay4
  rw [side_blk]
  simp only [shapeCast_self]
  rw [matmul_blk dot_S200x128_S128x128_S200x128_1_0_0_1_n_n ⟨rfl, rfl, rfl, rfl, rfl, rfl⟩]
  funext j
  obtain ⟨p, q, rfl⟩ : ∃ (p : Fin 200) (q : Fin 128), j = ix2 p q := ⟨j 0, j 1, eq_ix2 j⟩
  rfl

/-- The result block, row by row: the row function of the block's rows and the resident arrays. -/
theorem out_blk (x0 : Vec Ideal S200x10000 .f32) (x1 x2 : Vec Ideal S200x2048 .f32) (x3 : Vec Ideal S10000x128 .bf16)
    (x4 : Vec Ideal S200x128 .f32) (x5 x6 : Vec Ideal S2048x128 .bf16) (x7 : Vec Ideal S128x128 .bf16)
    (x8 : Vec Ideal S1x128 .f32) (x9 : Vec Ideal S128x128 .bf16) (x10 : Vec Ideal S1x128 .f32) :
    out1_11 (F := Ideal) x0 x1 x2 x3 x4 x5 x6 x7 x8 x9 x10
      = unc (fun p q => Cert.Spec.outRowK (cur x0 p) (cur x1 p) (cur x2 p) (cur x4 p) (cur x3) (cur x5) (cur x6) (cur x7)
          (fun j => x8 (ix2 (0 : Fin 1) j)) (cur x9) (fun j => x10 (ix2 (0 : Fin 1) j)) q) := by
  unfold out1_11
  rw [View.canon_unit_zero hz]
  simp only [View.ld_unit_zero (S := S200x10000) hz, View.ld_unit_zero (S := S10000x128) hz,
    View.ld_unit_zero (S := S200x2048) hz, View.ld_unit_zero (S := S2048x128) hz, View.ld_unit_zero (S := S200x128) hz,
    View.ld_unit_zero (S := S128x128) hz, View.ld_unit_zero (S := S1x128) hz]
  rw [sum_blk, bi_blk]
  unfold k1_pay1
  simp only [shapeCast_self]
  funext j
  obtain ⟨p, q, rfl⟩ : ∃ (p : Fin 200) (q : Fin 128), j = ix2 p q := ⟨j 0, j 1, eq_ix2 j⟩
  simp only [addf_apply, select_apply, cmpf_apply, mulf_apply, broadcast_apply, broadcastTo_1b_ab_apply]
  rfl

/-- The printed index maps over the grid: at point `t` the four streamed inputs' blocks and the result's block are
    block `(t, 0)`; the seven resident inputs' blocks are block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_4.index t (0 : Fin 2) = t.val ∧ win1_4.index t (1 : Fin 2) = 0
    ∧ win1_11.index t (0 : Fin 2) = t.val ∧ win1_11.index t (1 : Fin 2) = 0
    ∧ win1_3.index t (0 : Fin 2) = 0 ∧ win1_3.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- The grid has 50 points. -/
theorem t_lt (t : Fin cfg1.N) : t.val < 50 := lt_of_lt_of_eq t.isLt N_1

/-- Row `p` of the adjacency's block at point `t` is row `200 t + p` of the adjacency. -/
theorem row_adj (c : Dev nD) (t : Fin cfg1.N) (p : Fin 200) (r : Fin 10000) (hr : r.val = 200 * t.val + p.val) :
    cur (a := 200) (b := 10000) (iblk1 V c 0 t) p = cur (adj V c) r := by
  obtain ⟨e0, e1, e2, e3, e4, e5, e6, e7, -⟩ := idx_facts t
  funext k
  show V c main_arg1 (((cfg1.win 0).blk t).view.emb (ix2 p k)) = V c main_arg1 (ix2 r k)
  refine congrArg (V c main_arg1) ?_
  funext a; apply Fin.ext
  match a with
  | ⟨0, _⟩ => show win1_0.index t (0 : Fin 2) * 200 + 1 * p.val = r.val; omega
  | ⟨1, _⟩ => show win1_0.index t (1 : Fin 2) * 10000 + 1 * k.val = k.val; omega

/-- Row `p` of the first incidence block at point `t` is row `200 t + p` of that incidence matrix. -/
theorem row_proj2 (c : Dev nD) (t : Fin cfg1.N) (p : Fin 200) (r : Fin 10000) (hr : r.val = 200 * t.val + p.val) :
    cur (a := 200) (b := 2048) (iblk1 V c 1 t) p = cur (proj2 V c) r := by
  obtain ⟨e0, e1, e2, e3, e4, e5, e6, e7, -⟩ := idx_facts t
  funext k
  show V c main_arg3 (((cfg1.win 1).blk t).view.emb (ix2 p k)) = V c main_arg3 (ix2 r k)
  refine congrArg (V c main_arg3) ?_
  funext a; apply Fin.ext
  match a with
  | ⟨0, _⟩ => show win1_1.index t (0 : Fin 2) * 200 + 1 * p.val = r.val; omega
  | ⟨1, _⟩ => show win1_1.index t (1 : Fin 2) * 2048 + 1 * k.val = k.val; omega

/-- Row `p` of the second incidence block at point `t` is row `200 t + p` of that incidence matrix. -/
theorem row_lib2 (c : Dev nD) (t : Fin cfg1.N) (p : Fin 200) (r : Fin 10000) (hr : r.val = 200 * t.val + p.val) :
    cur (a := 200) (b := 2048) (iblk1 V c 2 t) p = cur (lib2 V c) r := by
  obtain ⟨e0, e1, e2, e3, e4, e5, e6, e7, -⟩ := idx_facts t
  funext k
  show V c main_arg5 (((cfg1.win 2).blk t).view.emb (ix2 p k)) = V c main_arg5 (ix2 r k)
  refine congrArg (V c main_arg5) ?_
  funext a; apply Fin.ext
  match a with
  | ⟨0, _⟩ => show win1_2.index t (0 : Fin 2) * 200 + 1 * p.val = r.val; omega
  | ⟨1, _⟩ => show win1_2.index t (1 : Fin 2) * 2048 + 1 * k.val = k.val; omega

/-- Row `p` of the embeddings' block at point `t` is row `200 t + p` of the embeddings. -/
theorem row_ego (c : Dev nD) (t : Fin cfg1.N) (p : Fin 200) (r : Fin 10000) (hr : r.val = 200 * t.val + p.val) :
    cur (a := 200) (b := 128) (iblk1 V c 4 t) p = cur (ego V c) r := by
  obtain ⟨e0, e1, e2, e3, e4, e5, e6, e7, -⟩ := idx_facts t
  funext k
  show V c main_arg0 (((cfg1.win 4).blk t).view.emb (ix2 p k)) = V c main_arg0 (ix2 r k)
  refine congrArg (V c main_arg0) ?_
  funext a; apply Fin.ext
  match a with
  | ⟨0, _⟩ => show win1_4.index t (0 : Fin 2) * 200 + 1 * p.val = r.val; omega
  | ⟨1, _⟩ => show win1_4.index t (1 : Fin 2) * 128 + 1 * k.val = k.val; omega

/-- The resident embeddings' window is the whole array at every point. -/
theorem blk_egoB (c : Dev nD) (t : Fin cfg1.N) : (iblk1 V c 3 t : Vec Ideal S10000x128 .bf16) = egoB V c := by
  obtain ⟨-, -, -, -, -, -, -, -, -, -, e3, e3', e5, e5', e6, e6', e7, e7', e8, e8', e9, e9', e10, e10'⟩ := idx_facts t
  funext y
  show V c main_v0 (((cfg1.win 3).blk t).view.emb y) = V c main_v0 y
  refine congrArg (V c main_v0) ?_
  funext a; apply Fin.ext
  match a with
  | ⟨0, _⟩ => show win1_3.index t (0 : Fin 2) * 10000 + 1 * (y 0).val = (y 0).val; omega
  | ⟨1, _⟩ => show win1_3.index t (1 : Fin 2) * 128 + 1 * (y 1).val = (y 1).val; omega

/-- The first hyperedge aggregate's window is the whole array at every point. -/
theorem blk_PB (c : Dev nD) (t : Fin cfg1.N) : (iblk1 V c 5 t : Vec Ideal S2048x128 .bf16) = PB V c := by
  obtain ⟨-, -, -, -, -, -, -, -, -, -, e3, e3', e5, e5', e6, e6', e7, e7', e8, e8', e9, e9', e10, e10'⟩ := idx_facts t
  funext y
  show V c main_v2 (((cfg1.win 5).blk t).view.emb y) = V c main_v2 y
  refine congrArg (V c main_v2) ?_
  funext a; apply Fin.ext
  match a with
  | ⟨0, _⟩ => show win1_5.index t (0 : Fin 2) * 2048 + 1 * (y 0).val = (y 0).val; omega
  | ⟨1, _⟩ => show win1_5.index t (1 : Fin 2) * 128 + 1 * (y 1).val = (y 1).val; omega

/-- The second hyperedge aggregate's window is the whole array at every point. -/
theorem blk_LB (c : Dev nD) (t : Fin cfg1.N) : (iblk1 V c 6 t : Vec Ideal S2048x128 .bf16) = LB V c := by
  obtain ⟨-, -, -, -, -, -, -, -, -, -, e3, e3', e5, e5', e6, e6', e7, e7', e8, e8', e9, e9', e10, e10'⟩ := idx_facts t
  funext y
  show V c main_v3 (((cfg1.win 6).blk t).view.emb y) = V c main_v3 y
  refine congrArg (V c main_v3) ?_
  funext a; apply Fin.ext
  match a with
  | ⟨0, _⟩ => show win1_6.index t (0 : Fin 2) * 2048 + 1 * (y 0).val = (y 0).val; omega
  | ⟨1, _⟩ => show win1_6.index t (1 : Fin 2) * 128 + 1 * (y 1).val = (y 1).val; omega

/-- The first transposed weight's window is the whole array at every point. -/
theorem blk_W1T (c : Dev nD) (t : Fin cfg1.N) : (iblk1 V c 7 t : Vec Ideal S128x128 .bf16) = W1T V c := by
  obtain ⟨-, -, -, -, -, -, -, -, -, -, e3, e3', e5, e5', e6, e6', e7, e7', e8, e8', e9, e9', e10, e10'⟩ := idx_facts t
  funext y
  show V c main_v5 (((cfg1.win 7).blk t).view.emb y) = V c main_v5 y
  refine congrArg (V c main_v5) ?_
  funext a; apply Fin.ext
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- The first bias row's window is the whole array at every point. -/
theorem blk_b1r (c : Dev nD) (t : Fin cfg1.N) : (iblk1 V c 8 t : Vec Ideal S1x128 .f32) = b1r V c := by
  obtain ⟨-, -, -, -, -, -, -, -, -, -, e3, e3', e5, e5', e6, e6', e7, e7', e8, e8', e9, e9', e10, e10'⟩ := idx_facts t
  funext y
  show V c main_v8 (((cfg1.win 8).blk t).view.emb y) = V c main_v8 y
  refine congrArg (V c main_v8) ?_
  funext a; apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- The second transposed weight's window is the whole array at every point. -/
theorem blk_W2T (c : Dev nD) (t : Fin cfg1.N) : (iblk1 V c 9 t : Vec Ideal S128x128 .bf16) = W2T V c := by
  obtain ⟨-, -, -, -, -, -, -, -, -, -, e3, e3', e5, e5', e6, e6', e7, e7', e8, e8', e9, e9', e10, e10'⟩ := idx_facts t
  funext y
  show V c main_v7 (((cfg1.win 9).blk t).view.emb y) = V c main_v7 y
  refine congrArg (V c main_v7) ?_
  funext a; apply Fin.ext
  match a with
  | ⟨0, _⟩ => show win1_9.index t (0 : Fin 2) * 128 + 1 * (y 0).val = (y 0).val; omega
  | ⟨1, _⟩ => show win1_9.index t (1 : Fin 2) * 128 + 1 * (y 1).val = (y 1).val; omega

/-- The second bias row's window is the whole array at every point. -/
theorem blk_b2r (c : Dev nD) (t : Fin cfg1.N) : (iblk1 V c 10 t : Vec Ideal S1x128 .f32) = b2r V c := by
  obtain ⟨-, -, -, -, -, -, -, -, -, -, e3, e3', e5, e5', e6, e6', e7, e7', e8, e8', e9, e9', e10, e10'⟩ := idx_facts t
  funext y
  show V c main_v9 (((cfg1.win 10).blk t).view.emb y) = V c main_v9 y
  refine congrArg (V c main_v9) ?_
  funext a; apply Fin.ext
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- The row function reads a block's row through that row alone, and the resident arrays whole: where row `p` of each
    streamed block is row `r` of its array and each resident block is its array, the block's element `(p, q)` is the
    arrays' element `(r, q)`. -/
theorem block_row (A : Vec Ideal S10000x10000 .f32) (P2 L2 : Vec Ideal S10000x2048 .f32) (E : Vec Ideal S10000x128 .f32)
    (EB : Vec Ideal S10000x128 .bf16) (P L : Vec Ideal S2048x128 .bf16) (W1 : Vec Ideal S128x128 .bf16)
    (B1 : Vec Ideal S1x128 .f32) (W2 : Vec Ideal S128x128 .bf16) (B2 : Vec Ideal S1x128 .f32)
    (x0 : Vec Ideal S200x10000 .f32) (x1 x2 : Vec Ideal S200x2048 .f32) (x3 : Vec Ideal S10000x128 .bf16)
    (x4 : Vec Ideal S200x128 .f32) (x5 x6 : Vec Ideal S2048x128 .bf16) (x7 : Vec Ideal S128x128 .bf16)
    (x8 : Vec Ideal S1x128 .f32) (x9 : Vec Ideal S128x128 .bf16) (x10 : Vec Ideal S1x128 .f32)
    (p : Fin 200) (r : Fin 10000)
    (h0 : cur x0 p = cur A r) (h1 : cur x1 p = cur P2 r) (h2 : cur x2 p = cur L2 r) (h4 : cur x4 p = cur E r)
    (h3 : x3 = EB) (h5 : x5 = P) (h6 : x6 = L) (h7 : x7 = W1) (h8 : x8 = B1) (h9 : x9 = W2) (h10 : x10 = B2)
    (q : Fin 128) :
    Cert.Spec.outRowK (cur x0 p) (cur x1 p) (cur x2 p) (cur x4 p) (cur x3) (cur x5) (cur x6) (cur x7)
        (fun j => x8 (ix2 (0 : Fin 1) j)) (cur x9) (fun j => x10 (ix2 (0 : Fin 1) j)) q
      = Cert.Spec.outRowK (cur A r) (cur P2 r) (cur L2 r) (cur E r) (cur EB) (cur P) (cur L) (cur W1)
        (fun j => B1 (ix2 (0 : Fin 1) j)) (cur W2) (fun j => B2 (ix2 (0 : Fin 1) j)) q := by
  subst h3 h5 h6 h7 h8 h9 h10
  rw [h0, h1, h2, h4]

/-- What point `t` writes back to the result array is block `t` of the row function of the arrays region 1 finds. -/
theorem flushed_eq (c : Dev nD) (t : Fin cfg1.N) :
    (dat1 (F := Ideal) V c).flushed 11 t
      = ((cfg1.win 11).blk t).view.read (Elt Ideal)
          (unc (fun i q => Cert.Spec.outRowK (cur (adj V c) i) (cur (proj2 V c) i) (cur (lib2 V c) i) (cur (ego V c) i)
            (cur (egoB V c)) (cur (PB V c)) (cur (LB V c)) (cur (W1T V c)) (fun j => b1r V c (ix2 (0 : Fin 1) j))
            (cur (W2T V c)) (fun j => b2r V c (ix2 (0 : Fin 1) j)) q) : S10000x128.Idx → EReal) := by
  show (cfg1.win 11).cut (grid1.coords t) ((dat1 (F := Ideal) V c).after 11 t) = _
  rw [after1_11]
  refine (congrArg ((cfg1.win 11).cut (grid1.coords t)) (out_blk (iblk1 V c 0 t) (iblk1 V c 1 t) (iblk1 V c 2 t)
    (iblk1 V c 3 t) (iblk1 V c 4 t) (iblk1 V c 5 t) (iblk1 V c 6 t) (iblk1 V c 7 t) (iblk1 V c 8 t) (iblk1 V c 9 t)
    (iblk1 V c 10 t))).trans ?_
  obtain ⟨-, -, -, -, -, -, -, -, e0, e1, -⟩ := idx_facts t
  have ht := t_lt t
  funext y
  obtain ⟨p, q, rfl⟩ : ∃ (p : Fin 200) (q : Fin 128), y = ix2 p q := ⟨y 0, y 1, eq_ix2 y⟩
  have hrow : ((cfg1.win 11).blk t).view.emb (ix2 p q) = ix2 (⟨200 * t.val + p.val, by omega⟩ : Fin 10000) q := by
    funext a; apply Fin.ext
    match a with
    | ⟨0, _⟩ => show win1_11.index t (0 : Fin 2) * 200 + 1 * p.val = 200 * t.val + p.val; omega
    | ⟨1, _⟩ => show win1_11.index t (1 : Fin 2) * 128 + 1 * q.val = q.val; omega
  show Cert.Spec.outRowK (cur (a := 200) (b := 10000) (iblk1 V c 0 t) p) (cur (a := 200) (b := 2048) (iblk1 V c 1 t) p)
        (cur (a := 200) (b := 2048) (iblk1 V c 2 t) p) (cur (a := 200) (b := 128) (iblk1 V c 4 t) p)
        (cur (a := 10000) (b := 128) (iblk1 V c 3 t)) (cur (a := 2048) (b := 128) (iblk1 V c 5 t))
        (cur (a := 2048) (b := 128) (iblk1 V c 6 t)) (cur (a := 128) (b := 128) (iblk1 V c 7 t))
        (fun j => (iblk1 V c 8 t : Vec Ideal S1x128 .f32) (ix2 (0 : Fin 1) j)) (cur (a := 128) (b := 128) (iblk1 V c 9 t))
        (fun j => (iblk1 V c 10 t : Vec Ideal S1x128 .f32) (ix2 (0 : Fin 1) j)) q
      = (unc (fun i q => Cert.Spec.outRowK (cur (adj V c) i) (cur (proj2 V c) i) (cur (lib2 V c) i) (cur (ego V c) i)
            (cur (egoB V c)) (cur (PB V c)) (cur (LB V c)) (cur (W1T V c)) (fun j => b1r V c (ix2 (0 : Fin 1) j))
            (cur (W2T V c)) (fun j => b2r V c (ix2 (0 : Fin 1) j)) q) : S10000x128.Idx → EReal)
          (((cfg1.win 11).blk t).view.emb (ix2 p q))
  rw [hrow]
  exact block_row (adj V c) (proj2 V c) (lib2 V c) (ego V c) (egoB V c) (PB V c) (LB V c) (W1T V c) (b1r V c) (W2T V c)
    (b2r V c) (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p ⟨200 * t.val + p.val, by omega⟩
    (row_adj V c t p _ rfl) (row_proj2 V c t p _ rfl) (row_lib2 V c t p _ rfl) (row_ego V c t p _ rfl)
    (blk_egoB V c t) (blk_PB V c t) (blk_LB V c t) (blk_W1T V c t) (blk_b1r V c t) (blk_W2T V c t) (blk_b2r V c t) q

/-- An index of the result array is in point `t`'s block iff each coordinate is in the block's range. -/
theorem mem_blk (t : Fin cfg1.N) (i : S10000x128.Idx) :
    i ∈ ((cfg1.win 11).blk t).view.set ↔ ∀ a : Fin 2, win1_11.index t a * S200x128.size a ≤ (i a).val ∧ (i a).val < win1_11.index t a * S200x128.size a + S200x128.size a := by
  show i ∈ ((View.whole main_v10).slice (win1_11.rect t)).set ↔ _
  rw [View.set_slice_whole, Rect.mem_set_unit]
  exact Iff.rfl

/-- The point whose block holds row `r`: `r / 200`. -/
def ptOf (i : S10000x128.Idx) : Fin cfg1.N :=
  ⟨(i 0).val / 200, by have h : (i 0).val < 10000 := (i 0).isLt; show _ < grid1.N; rw [N_1]; omega⟩

theorem ptOf_val (i : S10000x128.Idx) : (ptOf i).val = (i 0).val / 200 := rfl

/-- Every index of the result array is in the block of the point `row / 200`, which writes it back. -/
theorem cover (i : S10000x128.Idx) :
    ∃ t : Fin cfg1.N, (cfg1.win 11).flush t = true ∧ i ∈ ((cfg1.win 11).blk t).view.set := by
  have hi0 : (i 0).val < 10000 := (i 0).isLt
  have hi1 : (i 1).val < 128 := (i 1).isLt
  obtain ⟨-, -, -, -, -, -, -, -, e0, e1, -⟩ := idx_facts (ptOf i)
  have hv := ptOf_val i
  refine ⟨ptOf i, flush1_11 (ptOf i), ?_⟩
  rw [mem_blk]
  intro a
  match a with
  | ⟨0, _⟩ => show win1_11.index (ptOf i) (0 : Fin 2) * 200 ≤ (i 0).val ∧ (i 0).val < win1_11.index (ptOf i) (0 : Fin 2) * 200 + 200; omega
  | ⟨1, _⟩ => show win1_11.index (ptOf i) (1 : Fin 2) * 128 ≤ (i 1).val ∧ (i 1).val < win1_11.index (ptOf i) (1 : Fin 2) * 128 + 128; omega

/-- After region 1 the result array holds, at `(i, q)`, the row function of row `i` of the streamed matrices and the
    resident ones. -/
theorem out_arr (c : Dev nD) :
    (dat1 (F := Ideal) V c).arrAt 11 cfg1.N
      = (unc (fun i q => Cert.Spec.outRowK (cur (adj V c) i) (cur (proj2 V c) i) (cur (lib2 V c) i) (cur (ego V c) i)
          (cur (egoB V c)) (cur (PB V c)) (cur (LB V c)) (cur (W1T V c)) (fun j => b1r V c (ix2 (0 : Fin 1) j))
          (cur (W2T V c)) (fun j => b2r V c (ix2 (0 : Fin 1) j)) q) : S10000x128.Idx → EReal) :=
  (dat1 (F := Ideal) V c).arrAt_eq_of_cover 11 _ (fun t _ => flushed_eq V c t) cover

end Cert.KernelIdeal.Region1

end
-- ==== Proof.KValue.lean ====
import proofs.«175670_g32117765440056_cont_sun_m_480_2_alg».proof.Proof.KRun
import proofs.«175670_g32117765440056_cont_sun_m_480_2_alg».proof.Proof.Region0
import proofs.«175670_g32117765440056_cont_sun_m_480_2_alg».proof.Proof.Region1
import Idealize.ShloMosaic.Lib.StableHlo.Run
import Idealize.ShloMosaic.Lib.ValueLayout

/-!
# The kernel program's result as one function of its arguments

Region 0 is entered after the embeddings' change of format (the identity at the exact values) and leaves
`P = proj1·E` and `L = lib1·E`. The host stretch before region 1 changes the format of `P` and `L` (the identity
again), transposes the two weight matrices and lays each bias out as one row. Region 1 then finds exactly the data the
row function of the specification takes, so its result array is the specification of the arguments as launched.
-/

set_option maxRecDepth 16384

noncomputable section

open Idealize.ShloMosaic Idealize.ShloMosaic.TcCoe Idealize.ShloMosaic.ValueIdx
open Idealize.SL Idealize.SL.Sem
open Idealize.ShloMosaic.StableHlo
open PlainDot

namespace Cert.KernelIdeal.Whole

open Cert.KernelIdeal Cert.KernelIdeal.Gen

variable (m : (ℓ : Loc nD τ sig) → Buf (Elt Ideal) ℓ) (ρ : Dev nD → PrngReg)

/-- The ten arguments as launched, each at its literal type. -/
abbrev ego (c : Dev nD) : Vec Ideal S10000x128 .f32 := m ((c.tc : Thread nD τ).loc main_arg0)
abbrev adj (c : Dev nD) : Vec Ideal S10000x10000 .f32 := m ((c.tc : Thread nD τ).loc main_arg1)
abbrev proj1 (c : Dev nD) : Vec Ideal S2048x10000 .f32 := m ((c.tc : Thread nD τ).loc main_arg2)
abbrev proj2 (c : Dev nD) : Vec Ideal S10000x2048 .f32 := m ((c.tc : Thread nD τ).loc main_arg3)
abbrev lib1 (c : Dev nD) : Vec Ideal S2048x10000 .f32 := m ((c.tc : Thread nD τ).loc main_arg4)
abbrev lib2 (c : Dev nD) : Vec Ideal S10000x2048 .f32 := m ((c.tc : Thread nD τ).loc main_arg5)
abbrev wt1 (c : Dev nD) : Vec Ideal S128x128 .f32 := m ((c.tc : Thread nD τ).loc main_arg6)
abbrev b1 (c : Dev nD) : Vec Ideal S128 .f32 := m ((c.tc : Thread nD τ).loc main_arg7)
abbrev wt2 (c : Dev nD) : Vec Ideal S128x128 .f32 := m ((c.tc : Thread nD τ).loc main_arg8)
abbrev b2 (c : Dev nD) : Vec Ideal S128 .f32 := m ((c.tc : Thread nD τ).loc main_arg9)

/-! ## Region 0's entry: the first host stretch writes only the embeddings' sixteen-bit copy -/

theorem V1_proj1 (c : Dev nD) : Region0.proj1 (V1 m ρ) c = proj1 m c := by
  show StableHlo.after hostOps0 (W0 m ρ c) (Proc.devRef .tc main_arg2) = _
  after_results

theorem V1_lib1 (c : Dev nD) : Region0.lib1 (V1 m ρ) c = lib1 m c := by
  show StableHlo.after hostOps0 (W0 m ρ c) (Proc.devRef .tc main_arg4) = _
  after_results

theorem W1_v0 (c : Dev nD) :
    Gen.W1 m ρ c (Proc.devRef .tc main_v0) = (truncf (F := Ideal) .bf16 (ego m c) bitsLt_bf16_f32 : FVec Ideal S10000x128 .bf16) := by
  show StableHlo.after hostOps0 (W0 m ρ c) (Proc.devRef .tc main_v0) = _
  after_results

/-- The change of format is the identity on extended reals. -/
theorem V1_egoB (c : Dev nD) : cur (Region0.egoB (V1 m ρ) c) = cur (ego m c) := by
  show cur (Gen.W1 m ρ c (Proc.devRef .tc main_v0)) = _
  rw [W1_v0]
  rfl

/-! ## Region 0's exit: the two products -/

theorem P_eq (c : Dev nD) :
    Gen.W2 m ρ c (Proc.devRef .tc main_v1_0) = (unc (mm (cur (proj1 m c)) (cur (ego m c))) : S2048x128.Idx → EReal) := by
  refine (W2_arr m ρ c 3).trans ((Region0.P_arr (V1 m ρ) c).trans ?_)
  rw [V1_proj1, V1_egoB]

theorem L_eq (c : Dev nD) :
    Gen.W2 m ρ c (Proc.devRef .tc main_v1_1) = (unc (mm (cur (lib1 m c)) (cur (ego m c))) : S2048x128.Idx → EReal) := by
  refine (W2_arr m ρ c 4).trans ((Region0.L_arr (V1 m ρ) c).trans ?_)
  rw [V1_lib1, V1_egoB]

/-- Region 0 reads the embeddings' copy through an input window: it leaves it as entered. -/
theorem W2_v0 (c : Dev nD) :
    Gen.W2 m ρ c (Proc.devRef .tc main_v0) = (truncf (F := Ideal) .bf16 (ego m c) bitsLt_bf16_f32 : FVec Ideal S10000x128 .bf16) :=
  (W2_arr m ρ c 2).trans ((((dat0 (V1 m ρ) c).arrAt_in 2 rfl _).trans (A_eq0 (V1 m ρ) c 2)).trans (W1_v0 m ρ c))

/-! ## The arguments no window of region 0 holds are as launched at its exit -/

theorem W2_arg0 (c : Dev nD) : Gen.W2 m ρ c (Proc.devRef .tc main_arg0) = m ((c.tc : Thread nD τ).loc main_arg0) := by
  refine (W2_of_ne m ρ c main_arg0 (by decide)).trans ?_
  show StableHlo.after hostOps0 (W0 m ρ c) (Proc.devRef .tc main_arg0) = _
  after_results
theorem W2_arg1 (c : Dev nD) : Gen.W2 m ρ c (Proc.devRef .tc main_arg1) = m ((c.tc : Thread nD τ).loc main_arg1) := by
  refine (W2_of_ne m ρ c main_arg1 (by decide)).trans ?_
  show StableHlo.after hostOps0 (W0 m ρ c) (Proc.devRef .tc main_arg1) = _
  after_results
theorem W2_arg3 (c : Dev nD) : Gen.W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  after_results
theorem W2_arg5 (c : Dev nD) : Gen.W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results
theorem W2_arg6 (c : Dev nD) : Gen.W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results
theorem W2_arg7 (c : Dev nD) : Gen.W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results
theorem W2_arg8 (c : Dev nD) : Gen.W2 m ρ c (Proc.devRef .tc main_arg8) = m ((c.tc : Thread nD τ).loc main_arg8) := by
  refine (W2_of_ne m ρ c main_arg8 (by decide)).trans ?_
  show StableHlo.after hostOps0 (W0 m ρ c) (Proc.devRef .tc main_arg8) = _
  after_results
theorem W2_arg9 (c : Dev nD) : Gen.W2 m ρ c (Proc.devRef .tc main_arg9) = m ((c.tc : Thread nD τ).loc main_arg9) := by
  refine (W2_of_ne m ρ c main_arg9 (by decide)).trans ?_
  show StableHlo.after hostOps0 (W0 m ρ c) (Proc.devRef .tc main_arg9) = _
  after_results

/-! ## Region 1's entry: what the second host stretch leaves in each array region 1 reads -/

theorem V3_adj (c : Dev nD) : Region1.adj (V3 m ρ) c = adj m c := by
  show StableHlo.after hostOps1 (Gen.W2 m ρ c) (Proc.devRef .tc main_arg1) = _
  after_results
  exact W2_arg1 m ρ c

theorem V3_proj2 (c : Dev nD) : Region1.proj2 (V3 m ρ) c = proj2 m c := by
  show StableHlo.after hostOps1 (Gen.W2 m ρ c) (Proc.devRef .tc main_arg3) = _
  after_results
  exact W2_arg3 m ρ c

theorem V3_lib2 (c : Dev nD) : Region1.lib2 (V3 m ρ) c = lib2 m c := by
  show StableHlo.after hostOps1 (Gen.W2 m ρ c) (Proc.devRef .tc main_arg5) = _
  after_results
  exact W2_arg5 m ρ c

theorem V3_ego (c : Dev nD) : Region1.ego (V3 m ρ) c = ego m c := by
  show StableHlo.after hostOps1 (Gen.W2 m ρ c) (Proc.devRef .tc main_arg0) = _
  after_results
  exact W2_arg0 m ρ c

theorem V3_egoB (c : Dev nD) : cur (Region1.egoB (V3 m ρ) c) = cur (ego m c) := by
  have e : Region1.egoB (V3 m ρ) c = (truncf (F := Ideal) .bf16 (ego m c) bitsLt_bf16_f32 : FVec Ideal S10000x128 .bf16) := by
    show StableHlo.after hostOps1 (Gen.W2 m ρ c) (Proc.devRef .tc main_v0) = _
    after_results
    exact W2_v0 m ρ c
  rw [e]
  rfl

/-- The sixteen-bit copy of `P` is `P`: the product `proj1·E`. -/
theorem V3_PB (c : Dev nD) : cur (Region1.PB (V3 m ρ) c) = mm (cur (proj1 m c)) (cur (ego m c)) := by
  have e : Region1.PB (V3 m ρ) c
      = (truncf (F := Ideal) .bf16 (Gen.W2 m ρ c (Proc.devRef .tc main_v1_0) : FVec Ideal S2048x128 .f32) bitsLt_bf16_f32 : FVec Ideal S2048x128 .bf16) := by
    show StableHlo.after hostOps1 (Gen.W2 m ρ c) (Proc.devRef .tc main_v2) = _
    after_results
  rw [e, P_eq]
  rfl

theorem V3_LB (c : Dev nD) : cur (Region1.LB (V3 m ρ) c) = mm (cur (lib1 m c)) (cur (ego m c)) := by
  have e : Region1.LB (V3 m ρ) c
      = (truncf (F := Ideal) .bf16 (Gen.W2 m ρ c (Proc.devRef .tc main_v1_1) : FVec Ideal S2048x128 .f32) bitsLt_bf16_f32 : FVec Ideal S2048x128 .bf16) := by
    show StableHlo.after hostOps1 (Gen.W2 m ρ c) (Proc.devRef .tc main_v3) = _
    after_results
  rw [e, L_eq]
  rfl

/-- The transposed weights, read by coordinates. -/
theorem V3_W1T (c : Dev nD) : cur (Region1.W1T (V3 m ρ) c) = fun k j => cur (wt1 m c) j k := by
  have e : Region1.W1T (V3 m ρ) c
      = (truncf (F := Ideal) .bf16 (transpose S128x128 [1, 0] (Gen.W2 m ρ c (Proc.devRef .tc main_arg6) : FVec Ideal S128x128 .f32)
          transposes_S128x128_S128x128_1_0 : FVec Ideal S128x128 .f32) bitsLt_bf16_f32 : FVec Ideal S128x128 .bf16) := by
    show StableHlo.after hostOps1 (Gen.W2 m ρ c) (Proc.devRef .tc main_v5) = _
    after_results
  rw [e, W2_arg6]
  funext k j
  exact transpose_ix2_apply _ _ k j

theorem V3_W2T (c : Dev nD) : cur (Region1.W2T (V3 m ρ) c) = fun k j => cur (wt2 m c) j k := by
  have e : Region1.W2T (V3 m ρ) c
      = (truncf (F := Ideal) .bf16 (transpose S128x128 [1, 0] (Gen.W2 m ρ c (Proc.devRef .tc main_arg8) : FVec Ideal S128x128 .f32)
          transposes_S128x128_S128x128_1_0 : FVec Ideal S128x128 .f32) bitsLt_bf16_f32 : FVec Ideal S128x128 .bf16) := by
    show StableHlo.after hostOps1 (Gen.W2 m ρ c) (Proc.devRef .tc main_v7) = _
    after_results
  rw [e, W2_arg8]
  funext k j
  exact transpose_ix2_apply _ _ k j

/-- A bias laid out as one row, read along the row. -/
theorem V3_b1r (c : Dev nD) : (fun j => Region1.b1r (V3 m ρ) c (ix2 (0 : Fin 1) j)) = fun j => b1 m c (ix1 j) := by
  have e : Region1.b1r (V3 m ρ) c
      = (shapeCast S1x128 (Gen.W2 m ρ c (Proc.devRef .tc main_arg7) : FVec Ideal S128 .f32) shapeCasts_S128_S1x128 : FVec Ideal S1x128 .f32) := by
    show StableHlo.after hostOps1 (Gen.W2 m ρ c) (Proc.devRef .tc main_v8) = _
    after_results
    rfl
  rw [e, W2_arg7]
  funext j
  exact shapeCast_a_1a_apply _ _ 0 j

theorem V3_b2r (c : Dev nD) : (fun j => Region1.b2r (V3 m ρ) c (ix2 (0 : Fin 1) j)) = fun j => b2 m c (ix1 j) := by
  have e : Region1.b2r (V3 m ρ) c
      = (shapeCast S1x128 (Gen.W2 m ρ c (Proc.devRef .tc main_arg9) : FVec Ideal S128 .f32) shapeCasts_S128_S1x128 : FVec Ideal S1x128 .f32) := by
    show StableHlo.after hostOps1 (Gen.W2 m ρ c) (Proc.devRef .tc main_v9) = _
    after_results
    rfl
  rw [e, W2_arg9]
  funext j
  exact shapeCast_a_1a_apply _ _ 0 j

/-! ## The result -/

/-- At the last boundary the result array holds the specification (the sum branch's activation first) of the
    arguments as launched. -/
theorem W4_out (c : Dev nD) :
    W4 m ρ c (Proc.devRef .tc main_v10)
      = (unc (Cert.Spec.outK (cur (ego m c)) (cur (adj m c)) (cur (proj1 m c)) (cur (proj2 m c)) (cur (lib1 m c))
          (cur (lib2 m c)) (cur (wt1 m c)) (fun j => b1 m c (ix1 j)) (cur (wt2 m c)) (fun j => b2 m c (ix1 j))) : S10000x128.Idx → EReal) := by
  refine (W4_arr m ρ c 11).trans ((Region1.out_arr (V3 m ρ) c).trans ?_)
  rw [V3_adj, V3_proj2, V3_lib2, V3_ego, V3_egoB, V3_PB, V3_LB, V3_W1T, V3_b1r, V3_W2T, V3_b2r]
  rfl

/-- The kernel program runs, its result the specification of the arguments as launched, the arguments unchanged. -/
theorem run_spec :
    θ_run (defs (F := Ideal)) (onTc (τ := τ) (main (F := Ideal))) ⟨m, fun _ => 0, ρ⟩ fun r => ∀ c : Dev nD,
      r.2.mem ((c.tc : Thread nD τ).loc main_v10)
        = (unc (Cert.Spec.outK (cur (ego m c)) (cur (adj m c)) (cur (proj1 m c)) (cur (proj2 m c)) (cur (lib1 m c))
            (cur (lib2 m c)) (cur (wt1 m c)) (fun j => b1 m c (ix1 j)) (cur (wt2 m c)) (fun j => b2 m c (ix1 j))) : S10000x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (W4_out m ρ c), (h c).2⟩) (Gen.run_result m ρ)

end Cert.KernelIdeal.Whole

end
-- ==== Proof.RefRun.lean ====
import proofs.«175670_g32117765440056_cont_sun_m_480_2_alg».proof.Proof.Gen.ReferenceIdeal
import Idealize.ShloMosaic.Lib.StableHlo.Run

/-!
# The reference's run, read back

The reference is a host program: a straight line of tensor operations once its two calls of the activation are
unfolded at their call sites (the activation itself calls the select). Written as the list of its 36 operations in
order, its run from any memory with zero counters terminates with every buffer at the fold of the operations over the
launch contents. Read at the result buffer, that fold is a composed term of the ten arguments, named here stage by stage:

  side   = (A·E + p2·(p1·E)) + l2·(l1·E)
  dense x W b = x·Wᵀ + b                      (the bias a row broadcast over all rows)
  leaky x     = x where x ≥ 0, else α·x       (the zero and the slope both scalars broadcast)
  refOut = leaky (dense (E ∘ side) W2 b2) + leaky (dense (E + side) W1 b1)

and the ten arguments are unchanged.
-/

noncomputable section

namespace Cert.ReferenceIdeal.Whole

open Cert.ReferenceIdeal Cert.ReferenceIdeal.Gen Idealize.ShloMosaic Idealize.ShloMosaic.TcCoe Idealize.SL.Sem
open Idealize.ShloMosaic.StableHlo

variable {F : FTy → Type} [FloatOps F]

/-! ## The composed term, stage by stage -/

/-- The aggregate `(A·E + p2·(p1·E)) + l2·(l1·E)`. -/
def side (a0 : FVec F S10000x128 .f32) (a1 : FVec F S10000x10000 .f32) (a2 : FVec F S2048x10000 .f32)
    (a3 : FVec F S10000x2048 .f32) (a4 : FVec F S2048x10000 .f32) (a5 : FVec F S10000x2048 .f32) :
    FVec F S10000x128 .f32 :=
  addf
    (addf (Host.dotGeneral dot_S10000x10000_S10000x128_S10000x128_1_0_0_1_n_n none a1 a0)
      (Host.dotGeneral dot_S10000x2048_S2048x128_S10000x128_1_0_0_1_n_n none a3
        (Host.dotGeneral dot_S2048x10000_S10000x128_S2048x128_1_0_0_1_n_n none a2 a0)))
    (Host.dotGeneral dot_S10000x2048_S2048x128_S10000x128_1_0_0_1_n_n none a5
      (Host.dotGeneral dot_S2048x10000_S10000x128_S2048x128_1_0_0_1_n_n none a4 a0))

/-- A bias vector as a row, the row repeated over all rows. -/
def bias (b : FVec F S128 .f32) : FVec F S10000x128 .f32 :=
  broadcastInDim S10000x128 ![0, 1] bcast_S1x128_S10000x128_0_1 (broadcastInDim S1x128 ![1] bcast_S128_S1x128_1 b)

/-- `x·Wᵀ + b`. -/
def dense (x : FVec F S10000x128 .f32) (W : FVec F S128x128 .f32) (b : FVec F S128 .f32) : FVec F S10000x128 .f32 :=
  addf (Host.dotGeneral dot_S10000x128_S128x128_S10000x128_1_0_0_1_n_n none x
      (transpose S128x128 [1, 0] W transposes_S128x128_S128x128_1_0))
    (bias b)

/-- The activation: `x` where `x ≥ 0`, else the slope times `x`; the zero and the slope are scalars broadcast. -/
def leaky (x : FVec F S10000x128 .f32) : FVec F S10000x128 .f32 :=
  select (cmpf .oge x (broadcastInDim S10000x128 ![] bcast_S_S10000x128 (constant S_ .f32 0x00000000#32))) x
    (mulf (broadcastInDim S10000x128 ![] bcast_S_S10000x128 (id (constant S_ .f32 0x3C23D70A#32))) x)

/-- The result: the interaction branch's activation first, then the sum branch's. -/
def refOut (a0 : FVec F S10000x128 .f32) (a1 : FVec F S10000x10000 .f32) (a2 : FVec F S2048x10000 .f32)
    (a3 : FVec F S10000x2048 .f32) (a4 : FVec F S2048x10000 .f32) (a5 : FVec F S10000x2048 .f32)
    (a6 : FVec F S128x128 .f32) (a7 : FVec F S128 .f32) (a8 : FVec F S128x128 .f32) (a9 : FVec F S128 .f32) :
    FVec F S10000x128 .f32 :=
  addf (leaky (dense (mulf a0 (side a0 a1 a2 a3 a4 a5)) a8 a9))
    (leaky (dense (addf a0 (side a0 a1 a2 a3 a4 a5)) a6 a7))

/-! ## The program as a list -/

/-- The 36 operations in order, the two calls of the activation unfolded at their sites over each call's own buffers:
    thirteen operations up to the sum branch's pre-activation, the slope, the activation's seven (the zero, its
    broadcast, the comparison, the slope converted to its own type, its broadcast, the product, the select); six up to
    the interaction branch's pre-activation, the slope, the activation's seven again; the final sum. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg2 main_arg0 main_v1 ((fun l r => Host.dotGeneral dot_S2048x10000_S10000x128_S2048x128_1_0_0_1_n_n none l r) : (⟨S2048x10000, .f32⟩ : BufTy).Contents (Elt F) → (⟨S10000x128, .f32⟩ : BufTy).Contents (Elt F) → (⟨S2048x128, .f32⟩ : BufTy).Contents (Elt F)),
    binary main_arg3 main_v1 main_v2 ((fun l r => Host.dotGeneral dot_S10000x2048_S2048x128_S10000x128_1_0_0_1_n_n none l r) : (⟨S10000x2048, .f32⟩ : BufTy).Contents (Elt F) → (⟨S2048x128, .f32⟩ : BufTy).Contents (Elt F) → (⟨S10000x128, .f32⟩ : BufTy).Contents (Elt F)),
    binary main_arg4 main_arg0 main_v3 ((fun l r => Host.dotGeneral dot_S2048x10000_S10000x128_S2048x128_1_0_0_1_n_n none l r) : (⟨S2048x10000, .f32⟩ : BufTy).Contents (Elt F) → (⟨S10000x128, .f32⟩ : BufTy).Contents (Elt F) → (⟨S2048x128, .f32⟩ : BufTy).Contents (Elt F)),
    binary main_arg5 main_v3 main_v4 ((fun l r => Host.dotGeneral dot_S10000x2048_S2048x128_S10000x128_1_0_0_1_n_n none l r) : (⟨S10000x2048, .f32⟩ : BufTy).Contents (Elt F) → (⟨S2048x128, .f32⟩ : BufTy).Contents (Elt F) → (⟨S10000x128, .f32⟩ : BufTy).Contents (Elt F)),
    binary main_v0 main_v2 main_v5 (addf : (⟨S10000x128, .f32⟩ : BufTy).Contents (Elt F) → (⟨S10000x128, .f32⟩ : BufTy).Contents (Elt F) → (⟨S10000x128, .f32⟩ : BufTy).Contents (Elt F)),
    binary main_v5 main_v4 main_v6 (addf : (⟨S10000x128, .f32⟩ : BufTy).Contents (Elt F) → (⟨S10000x128, .f32⟩ : BufTy).Contents (Elt F) → (⟨S10000x128, .f32⟩ : BufTy).Contents (Elt F)),
    binary main_arg0 main_v6 main_v7 (addf : (⟨S10000x128, .f32⟩ : BufTy).Contents (Elt F) → (⟨S10000x128, .f32⟩ : BufTy).Contents (Elt F) → (⟨S10000x128, .f32⟩ : BufTy).Contents (Elt F)),
    unary main_arg6 main_v8 ((transpose S128x128 [1, 0] · transposes_S128x128_S128x128_1_0) : (⟨S128x128, .f32⟩ : BufTy).Contents (Elt F) → (⟨S128x128, .f32⟩ : BufTy).Contents (Elt F)),
    binary main_v7 main_v8 main_v9 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg7 main_v10 (broadcastInDim S1x128 ![1] bcast_S128_S1x128_1 : (⟨S128, .f32⟩ : BufTy).Contents (Elt F) → (⟨S1x128, .f32⟩ : BufTy).Contents (Elt F)),
    unary main_v10 main_v11 (broadcastInDim S10000x128 ![0, 1] bcast_S1x128_S10000x128_0_1 : (⟨S1x128, .f32⟩ : BufTy).Contents (Elt F) → (⟨S10000x128, .f32⟩ : BufTy).Contents (Elt F)),
    binary main_v9 main_v11 main_v12 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v12) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v12) main_call0.v4 mulf,
    TRef.ternary main_call0.v1 (.of main_v12) main_call0.v4 main_call0.call0.v0 select,
    binary main_arg0 main_v6 main_v14 (mulf : (⟨S10000x128, .f32⟩ : BufTy).Contents (Elt F) → (⟨S10000x128, .f32⟩ : BufTy).Contents (Elt F) → (⟨S10000x128, .f32⟩ : BufTy).Contents (Elt F)),
    unary main_arg8 main_v15 ((transpose S128x128 [1, 0] · transposes_S128x128_S128x128_1_0) : (⟨S128x128, .f32⟩ : BufTy).Contents (Elt F) → (⟨S128x128, .f32⟩ : BufTy).Contents (Elt F)),
    binary main_v14 main_v15 main_v16 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v17 (broadcastInDim S1x128 ![1] bcast_S128_S1x128_1 : (⟨S128, .f32⟩ : BufTy).Contents (Elt F) → (⟨S1x128, .f32⟩ : BufTy).Contents (Elt F)),
    unary main_v17 main_v18 (broadcastInDim S10000x128 ![0, 1] bcast_S1x128_S10000x128_0_1 : (⟨S1x128, .f32⟩ : BufTy).Contents (Elt F) → (⟨S10000x128, .f32⟩ : BufTy).Contents (Elt F)),
    binary main_v16 main_v18 main_v19 (addf : (⟨S10000x128, .f32⟩ : BufTy).Contents (Elt F) → (⟨S10000x128, .f32⟩ : BufTy).Contents (Elt F) → (⟨S10000x128, .f32⟩ : BufTy).Contents (Elt F)),
    nullary main_cst_0 (constant S_ .f32 0x3C23D70A#32),
    TRef.nullary main_call1.cst (constant S_ .f32 0x00000000#32),
    TRef.unary main_call1.cst main_call1.v0 (broadcastInDim S10000x128 ![] bcast_S_S10000x128),
    TRef.binary (.of main_v19) main_call1.v0 main_call1.v1 (cmpf .oge),
    TRef.unary (.of main_cst_0) main_call1.v2 id,
    TRef.unary main_call1.v2 main_call1.v3 (broadcastInDim S10000x128 ![] bcast_S_S10000x128),
    TRef.binary main_call1.v3 (.of main_v19) main_call1.v4 mulf,
    TRef.ternary main_call1.v1 (.of main_v19) main_call1.v4 main_call1.call0.v0 select,
    binary main_v20 main_v13 main_v21 (addf : (⟨S10000x128, .f32⟩ : BufTy).Contents (Elt F) → (⟨S10000x128, .f32⟩ : BufTy).Contents (Elt F) → (⟨S10000x128, .f32⟩ : BufTy).Contents (Elt F)) ]

-- the chain is thirty-six steps long, re-associated one step at a time
set_option maxRecDepth 1024 in
/-- The program is that straight line: the activation's and the select's definitions unfolded at their calls, both sides
    are one chain of steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

/-! ## The fold read at the result and at the arguments -/

/-- At the result buffer the fold is the composed term of the arguments' contents: each operation's result at its own
    buffer is its function's value, at any other buffer what was there, and the stages' definitions are that term. -/
theorem out_eq (V : Valuation τ sig (Elt F)) :
    after ops V (main_v21 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-! ## The run -/

/-- On every device, for any float values, from any memory with zero counters: every weakly fair execution of the
    reference terminates with the result buffer at `refOut` of the arguments as launched, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v21)
        = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v21).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.Whole

end
-- ==== Proof.RefValue.lean ====
import proofs.«175670_g32117765440056_cont_sun_m_480_2_alg».proof.Proof.Gen.ReferenceIdeal
import proofs.«175670_g32117765440056_cont_sun_m_480_2_alg».proof.Proof.Spec
import proofs.«175670_g32117765440056_cont_sun_m_480_2_alg».proof.Proof.RefRun
import Idealize.ShloMosaic.Lib.StableHlo.Run
import Idealize.ShloMosaic.Lib.Pipeline.Value
import Idealize.ShloMosaic.Lib.ValueLayout
import Idealize.ShloMosaic.Lib.IdealHost

/-!
# The reference's result is the specification

The composed term the reference's run leaves in its result buffer, read at an index `(i, q)`: each of its five
products is a sum over the inner coordinate, a transposed weight read at `(k, q)` is the weight at `(q, k)`, a bias
repeated over the rows reads the vector at the column, and the activation's two broadcast scalars are the zero and
the slope. What comes out is the specification's row function of row `i`'s data, the interaction branch's activation
first: the reference adds the two branches in that order.
-/

noncomputable section

open Idealize.ShloMosaic Idealize.ShloMosaic.TcCoe Idealize.ShloMosaic.ValueIdx
open Idealize.SL Idealize.SL.Sem
open PlainDot

namespace Cert.ReferenceIdeal.Whole

open Cert.ReferenceIdeal Cert.ReferenceIdeal.Gen

/-! ## Each product as a sum over the inner coordinate -/

/-- `A·E`: an `n × n` by an `n × d` matrix. -/
theorem dotNN (l : FVec Ideal S10000x10000 .f32) (r : FVec Ideal S10000x128 .f32) :
    Host.dotGeneral dot_S10000x10000_S10000x128_S10000x128_1_0_0_1_n_n none l r = unc (mm (cur l) (cur r)) :=
  PlainDot.dotGeneral dot_S10000x10000_S10000x128_S10000x128_1_0_0_1_n_n ⟨rfl, rfl, rfl, rfl, rfl, rfl⟩ none .single l r

/-- `p1·E`, `l1·E`: an `h × n` by an `n × d` matrix. -/
theorem dotHN (l : FVec Ideal S2048x10000 .f32) (r : FVec Ideal S10000x128 .f32) :
    Host.dotGeneral dot_S2048x10000_S10000x128_S2048x128_1_0_0_1_n_n none l r = unc (mm (cur l) (cur r)) :=
  PlainDot.dotGeneral dot_S2048x10000_S10000x128_S2048x128_1_0_0_1_n_n ⟨rfl, rfl, rfl, rfl, rfl, rfl⟩ none .single l r

/-- `p2·P`, `l2·L`: an `n × h` by an `h × d` matrix. -/
theorem dotNH (l : FVec Ideal S10000x2048 .f32) (r : FVec Ideal S2048x128 .f32) :
    Host.dotGeneral dot_S10000x2048_S2048x128_S10000x128_1_0_0_1_n_n none l r = unc (mm (cur l) (cur r)) :=
  PlainDot.dotGeneral dot_S10000x2048_S2048x128_S10000x128_1_0_0_1_n_n ⟨rfl, rfl, rfl, rfl, rfl, rfl⟩ none .single l r

/-- `x·Wᵀ`: an `n × d` by a `d × d` matrix. -/
theorem dotND (l : FVec Ideal S10000x128 .f32) (r : FVec Ideal S128x128 .f32) :
    Host.dotGeneral dot_S10000x128_S128x128_S10000x128_1_0_0_1_n_n none l r = unc (mm (cur l) (cur r)) :=
  PlainDot.dotGeneral dot_S10000x128_S128x128_S10000x128_1_0_0_1_n_n ⟨rfl, rfl, rfl, rfl, rfl, rfl⟩ none .single l r

/-! ## The stages at an index -/

/-- The aggregate at `(i, k)` is the specification's row aggregate of row `i`'s data. -/
theorem side_apply (a0 : FVec Ideal S10000x128 .f32) (a1 : FVec Ideal S10000x10000 .f32) (a2 : FVec Ideal S2048x10000 .f32)
    (a3 : FVec Ideal S10000x2048 .f32) (a4 : FVec Ideal S2048x10000 .f32) (a5 : FVec Ideal S10000x2048 .f32)
    (i : Fin 10000) (k : Fin 128) :
    side a0 a1 a2 a3 a4 a5 (ix2 i k)
      = Cert.Spec.sideRow (cur a1 i) (cur a3 i) (cur a5 i) (cur a0) (mm (cur a2) (cur a0)) (mm (cur a4) (cur a0)) k := by
  unfold side
  rw [dotNN, dotHN, dotHN, dotNH, dotNH]
  rfl

/-- The bias, a row repeated over all rows, reads the vector at the column. -/
theorem bias_apply (b : FVec Ideal S128 .f32) (i : Fin 10000) (q : Fin 128) : bias b (ix2 i q) = b (ix1 q) := by
  unfold bias
  rw [broadcastInDim_apply ![0, 1] bcast_S1x128_S10000x128_0_1 _ (ix2 i q) (ix2 (0 : Fin 1) q)
      (fun a => match a with | ⟨0, _⟩ => rfl | ⟨1, _⟩ => rfl),
    broadcastInDim_apply ![1] bcast_S128_S1x128_1 b (ix2 (0 : Fin 1) q) (ix1 q) (fun a => match a with | ⟨0, _⟩ => rfl)]

/-- `x·Wᵀ + b` at `(i, q)`: the sum over the inner coordinate against row `q` of `W`, plus the bias at `q`. -/
theorem dense_apply (x : FVec Ideal S10000x128 .f32) (W : FVec Ideal S128x128 .f32) (b : FVec Ideal S128 .f32)
    (i : Fin 10000) (q : Fin 128) :
    dense x W b (ix2 i q) = (∑ k : Fin 128, cur x i k * cur W q k) + b (ix1 q) := by
  unfold dense
  rw [addf_apply, dotND, bias_apply]
  show (∑ k : Fin 128, cur x i k * transpose S128x128 [1, 0] W transposes_S128x128_S128x128_1_0 (ix2 k q)) + _ = _
  congr 1
  exact Finset.sum_congr rfl fun k _ => by rw [transpose_ix2_apply]

/-- The activation at an index is the specification's. -/
theorem leaky_apply (x : FVec Ideal S10000x128 .f32) (j : S10000x128.Idx) : leaky x j = Cert.Spec.lrelu (x j) := by
  unfold leaky Cert.Spec.lrelu
  rw [select_apply, cmpf_apply, mulf_apply, broadcastInDim_scalar_apply, broadcastInDim_scalar_apply, constant_apply]
  rfl

/-! ## The whole result -/

/-- The composed term is the specification of the ten arguments read by coordinates. -/
theorem refOut_eq (a0 : FVec Ideal S10000x128 .f32) (a1 : FVec Ideal S10000x10000 .f32) (a2 : FVec Ideal S2048x10000 .f32)
    (a3 : FVec Ideal S10000x2048 .f32) (a4 : FVec Ideal S2048x10000 .f32) (a5 : FVec Ideal S10000x2048 .f32)
    (a6 : FVec Ideal S128x128 .f32) (a7 : FVec Ideal S128 .f32) (a8 : FVec Ideal S128x128 .f32) (a9 : FVec Ideal S128 .f32) :
    refOut a0 a1 a2 a3 a4 a5 a6 a7 a8 a9
      = unc (Cert.Spec.outR (cur a0) (cur a1) (cur a2) (cur a3) (cur a4) (cur a5) (cur a6) (fun j => a7 (ix1 j)) (cur a8)
          (fun j => a9 (ix1 j))) := by
  funext j
  obtain ⟨i, q, rfl⟩ : ∃ (i : Fin 10000) (q : Fin 128), j = ix2 i q := ⟨j 0, j 1, eq_ix2 j⟩
  unfold refOut
  rw [addf_apply, leaky_apply, leaky_apply, dense_apply, dense_apply]
  show Cert.Spec.lrelu ((∑ k : Fin 128, (a0 (ix2 i k) * side a0 a1 a2 a3 a4 a5 (ix2 i k)) * cur a8 q k) + a9 (ix1 q))
      + Cert.Spec.lrelu ((∑ k : Fin 128, (a0 (ix2 i k) + side a0 a1 a2 a3 a4 a5 (ix2 i k)) * cur a6 q k) + a7 (ix1 q)) = _
  simp only [side_apply]
  rfl

variable (m : (ℓ : Loc nD τ sig) → Buf (Elt Ideal) ℓ)

/-- The ten arguments as launched, each at its literal type. -/
abbrev ego (c : Dev nD) : Vec Ideal S10000x128 .f32 := m ((c.tc : Thread nD τ).loc main_arg0)
abbrev adj (c : Dev nD) : Vec Ideal S10000x10000 .f32 := m ((c.tc : Thread nD τ).loc main_arg1)
abbrev proj1 (c : Dev nD) : Vec Ideal S2048x10000 .f32 := m ((c.tc : Thread nD τ).loc main_arg2)
abbrev proj2 (c : Dev nD) : Vec Ideal S10000x2048 .f32 := m ((c.tc : Thread nD τ).loc main_arg3)
abbrev lib1 (c : Dev nD) : Vec Ideal S2048x10000 .f32 := m ((c.tc : Thread nD τ).loc main_arg4)
abbrev lib2 (c : Dev nD) : Vec Ideal S10000x2048 .f32 := m ((c.tc : Thread nD τ).loc main_arg5)
abbrev W1 (c : Dev nD) : Vec Ideal S128x128 .f32 := m ((c.tc : Thread nD τ).loc main_arg6)
abbrev b1 (c : Dev nD) : Vec Ideal S128 .f32 := m ((c.tc : Thread nD τ).loc main_arg7)
abbrev W2 (c : Dev nD) : Vec Ideal S128x128 .f32 := m ((c.tc : Thread nD τ).loc main_arg8)
abbrev b2 (c : Dev nD) : Vec Ideal S128 .f32 := m ((c.tc : Thread nD τ).loc main_arg9)

/-- The reference runs, its result the specification (the interaction branch's activation first) of the arguments as
    launched, the arguments unchanged. -/
theorem run_spec (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
        = (unc (Cert.Spec.outR (cur (ego m c)) (cur (adj m c)) (cur (proj1 m c)) (cur (proj2 m c)) (cur (lib1 m c))
            (cur (lib2 m c)) (cur (W1 m c)) (fun j => b1 m c (ix1 j)) (cur (W2 m c)) (fun j => b2 m c (ix1 j))) : S10000x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (refOut_eq _ _ _ _ _ _ _ _ _ _), (h c).2⟩) (run m ρ)

end Cert.ReferenceIdeal.Whole

end
-- ==== Proof.lean ====
/-
  The certificate: a two-stage hypergraph aggregator against its plain reference.

  With `E` the embeddings (10000 × 128), `A` the adjacency, `p1, l1` (2048 × 10000) and `p2, l2` (10000 × 2048)
  the two incidence pairs, both programs compute

      side = (A·E + p2·(p1·E)) + l2·(l1·E)
      out  = φ((E + side)·W1ᵀ + b1) + φ((E ∘ side)·W2ᵀ + b2),      φ x = x where x ≥ 0, else α·x,

  the kernel program in two gridded stages (first `p1·E` and `l1·E` by row blocks, then everything else by row blocks
  of the entities), the reference in one pass over whole arrays. At the exact values a change of float format is the
  identity and a matrix product is a finite sum in whatever order, so the only difference left is that the reference
  adds the two activated branches in the other order; addition of extended reals commutes (`Cert.Spec.outK_eq_outR`).
  No finiteness of the inputs is used.

  The three frames: the kernel programs' are the generated ones; the reference's is its run with the result dropped.
  The idealization rewrote nothing, so there is nothing to preserve.
-/
import proofs.«175670_g32117765440056_cont_sun_m_480_2_alg».proof.Defs
import proofs.«175670_g32117765440056_cont_sun_m_480_2_alg».proof.Proof.Gen.Kernel
import proofs.«175670_g32117765440056_cont_sun_m_480_2_alg».proof.Proof.Gen.Kernel.Frame
import proofs.«175670_g32117765440056_cont_sun_m_480_2_alg».proof.Proof.Gen.KernelIdeal
import proofs.«175670_g32117765440056_cont_sun_m_480_2_alg».proof.Proof.Gen.KernelIdeal.Frame
import proofs.«175670_g32117765440056_cont_sun_m_480_2_alg».proof.Proof.Gen.ReferenceIdeal
import proofs.«175670_g32117765440056_cont_sun_m_480_2_alg».proof.Proof.Gen.Pre_finite_inputs
import proofs.«175670_g32117765440056_cont_sun_m_480_2_alg».proof.Proof.KValue
import proofs.«175670_g32117765440056_cont_sun_m_480_2_alg».proof.Proof.RefValue
import Idealize.ShloMosaic.Adequacy
import Idealize.ShloMosaic.Init

noncomputable section

namespace Cert.Proof

open Idealize.ShloMosaic Idealize.ShloMosaic.ValueIdx Idealize.SL.Sem PlainDot

/-- Run from memories that agree on the arguments, the two idealized programs end with the same result: each ends at
    the specification of its own arguments, in its own order of the final sum. -/
theorem algebraic : Cert.algebraic_KernelIdeal_ReferenceIdeal
    (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (unc (Cert.Spec.outK (cur (Cert.KernelIdeal.Whole.ego m c)) (cur (Cert.KernelIdeal.Whole.adj m c)) (cur (Cert.KernelIdeal.Whole.proj1 m c))
      (cur (Cert.KernelIdeal.Whole.proj2 m c)) (cur (Cert.KernelIdeal.Whole.lib1 m c)) (cur (Cert.KernelIdeal.Whole.lib2 m c)) (cur (Cert.KernelIdeal.Whole.wt1 m c))
      (fun j => Cert.KernelIdeal.Whole.b1 m c (ix1 j)) (cur (Cert.KernelIdeal.Whole.wt2 m c)) (fun j => Cert.KernelIdeal.Whole.b2 m c (ix1 j))) : Cert.KernelIdeal.S10000x128.Idx → EReal),
    Cert.KernelIdeal.Whole.run_spec m ρ, ?_⟩
  refine (θ_run Cert.ReferenceIdeal.defs _ _).mono (fun _ h c => ⟨(h c).1.trans ?_, (h c).2⟩) (Cert.ReferenceIdeal.Whole.run_spec m' ρ')
  obtain ⟨h0, h1, h2, h3, h4, h5, h6, h7, h8, h9⟩ := hagree c
  have e0 : Cert.ReferenceIdeal.Whole.ego m' c = Cert.KernelIdeal.Whole.ego m c := h0
  have e1 : Cert.ReferenceIdeal.Whole.adj m' c = Cert.KernelIdeal.Whole.adj m c := h1
  have e2 : Cert.ReferenceIdeal.Whole.proj1 m' c = Cert.KernelIdeal.Whole.proj1 m c := h2
  have e3 : Cert.ReferenceIdeal.Whole.proj2 m' c = Cert.KernelIdeal.Whole.proj2 m c := h3
  have e4 : Cert.ReferenceIdeal.Whole.lib1 m' c = Cert.KernelIdeal.Whole.lib1 m c := h4
  have e5 : Cert.ReferenceIdeal.Whole.lib2 m' c = Cert.KernelIdeal.Whole.lib2 m c := h5
  have e6 : Cert.ReferenceIdeal.Whole.W1 m' c = Cert.KernelIdeal.Whole.wt1 m c := h6
  have e7 : Cert.ReferenceIdeal.Whole.b1 m' c = Cert.KernelIdeal.Whole.b1 m c := h7
  have e8 : Cert.ReferenceIdeal.Whole.W2 m' c = Cert.KernelIdeal.Whole.wt2 m c := h8
  have e9 : Cert.ReferenceIdeal.Whole.b2 m' c = Cert.KernelIdeal.Whole.b2 m c := h9
  rw [e0, e1, e2, e3, e4, e5, e6, e7, e8, e9]
  exact (congrArg unc (Cert.Spec.outK_eq_outR _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Whole.run_spec m ρ),
    trivial,
    algebraic⟩

end Cert.Proof

end
